-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64 : Shape := ⟨1, ![64]⟩
abbrev S96x64x64 : Shape := ⟨3, ![96, 64, 64]⟩
abbrev S96x64 : Shape := ⟨2, ![96, 64]⟩
abbrev S96x8192x64 : Shape := ⟨3, ![96, 8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64 : S_.BroadcastsInDim S64 (![] : Fin 0 → Fin S64.rank)
  reducesTo_S64_S_d0 : S64.ReducesTo [0] S_
  bcast_S_S96x64x64 : S_.BroadcastsInDim S96x64x64 (![] : Fin 0 → Fin S96x64x64.rank)
  reducesTo_S96x64x64_S_d0_1_2 : S96x64x64.ReducesTo [0, 1, 2] S_
  bcast_S_S96x64 : S_.BroadcastsInDim S96x64 (![] : Fin 0 → Fin S96x64.rank)
  reducesTo_S96x64_S_d0_1 : S96x64.ReducesTo [0, 1] S_
  bcast_S_S96x8192x64 : S_.BroadcastsInDim S96x8192x64 (![] : Fin 0 → Fin S96x8192x64.rank)
  reducesTo_S96x8192x64_S_d0_1_2 : S96x8192x64.ReducesTo [0, 1, 2] S_

variable [Facts]

def fn_part2 {F : FTy → Type} [FloatOps F] (main_arg6 : IVec S96x64 32) (main_arg7 : IVec S96x64 32) (main_v32 : IVec S_ 1) (main_c_12 : IVec S_ 32) : IVec S_ 1 :=
  let main_v33 : IVec S96x64 32 := broadcastInDim S96x64 ![] bcast_S_S96x64 main_c_12
  let main_v34 : IVec S96x64 1 := cmpi .slt main_arg6 main_v33
  let main_c_13 : IVec S_ 1 := constantI S_ 1 1#1
  let main_v35 : IVec S_ 1 := (fun x v => Host.reduce IntOp.andi x v reducesTo_S96x64_S_d0_1 h_S_) main_v34 main_c_13
  let main_v36 : IVec S_ 1 := andi main_v32 main_v35
  let main_c_14 : IVec S_ 32 := constantI S_ 32 0#32
  let main_v37 : IVec S96x64 32 := broadcastInDim S96x64 ![] bcast_S_S96x64 main_c_14
  let main_v38 : IVec S96x64 1 := cmpi .sge main_arg7 main_v37
  let main_c_15 : IVec S_ 1 := constantI S_ 1 1#1
  let main_v39 : IVec S_ 1 := (fun x v => Host.reduce IntOp.andi x v reducesTo_S96x64_S_d0_1 h_S_) main_v38 main_c_15
  let main_v40 : IVec S_ 1 := andi main_v36 main_v39
  let main_c_16 : IVec S_ 32 := constantI S_ 32 64#32
  let main_v41 : IVec S96x64 32 := broadcastInDim S96x64 ![] bcast_S_S96x64 main_c_16
  let main_v42 : IVec S96x64 1 := cmpi .slt main_arg7 main_v41
  let main_c_17 : IVec S_ 1 := constantI S_ 1 1#1
  let main_v43 : IVec S_ 1 := (fun x v => Host.reduce IntOp.andi x v reducesTo_S96x64_S_d0_1 h_S_) main_v42 main_c_17
  let main_v44 : IVec S_ 1 := andi main_v40 main_v43
  main_v44

def fn_part1 {F : FTy → Type} [FloatOps F] (main_arg4 : FVec F S96x64 .f32) (main_arg5 : FVec F S96x8192x64 .f32) (main_arg6 : IVec S96x64 32) (main_arg7 : IVec S96x64 32) (main_v13 : IVec S_ 1) (main_v16 : IVec S96x64x64 1) : IVec S_ 1 :=
  let main_c_5 : IVec S_ 1 := constantI S_ 1 1#1
  let main_v17 : IVec S_ 1 := (fun x v => Host.reduce IntOp.andi x v reducesTo_S96x64x64_S_d0_1_2 h_S_) main_v16 main_c_5
  let main_v18 : IVec S_ 1 := andi main_v13 main_v17
  let main_v19 : FVec F S96x64 .f32 := Host.absf main_arg4
  let main_cst_6 : FVec F S_ .f32 := constant S_ .f32 0x7F800000#32
  let main_v20 : FVec F S96x64 .f32 := broadcastInDim S96x64 ![] bcast_S_S96x64 main_cst_6
  let main_v21 : IVec S96x64 1 := cmpf .olt main_v19 main_v20
  let main_c_7 : IVec S_ 1 := constantI S_ 1 1#1
  let main_v22 : IVec S_ 1 := (fun x v => Host.reduce IntOp.andi x v reducesTo_S96x64_S_d0_1 h_S_) main_v21 main_c_7
  let main_v23 : IVec S_ 1 := andi main_v18 main_v22
  let main_v24 : FVec F S96x8192x64 .f32 := Host.absf main_arg5
  let main_cst_8 : FVec F S_ .f32 := constant S_ .f32 0x7F800000#32
  let main_v25 : FVec F S96x8192x64 .f32 := broadcastInDim S96x8192x64 ![] bcast_S_S96x8192x64 main_cst_8
  let main_v26 : IVec S96x8192x64 1 := cmpf .olt main_v24 main_v25
  let main_c_9 : IVec S_ 1 := constantI S_ 1 1#1
  let main_v27 : IVec S_ 1 := (fun x v => Host.reduce IntOp.andi x v reducesTo_S96x8192x64_S_d0_1_2 h_S_) main_v26 main_c_9
  let main_v28 : IVec S_ 1 := andi main_v23 main_v27
  let main_c_10 : IVec S_ 32 := constantI S_ 32 0#32
  let main_v29 : IVec S96x64 32 := broadcastInDim S96x64 ![] bcast_S_S96x64 main_c_10
  let main_v30 : IVec S96x64 1 := cmpi .sge main_arg6 main_v29
  let main_c_11 : IVec S_ 1 := constantI S_ 1 1#1
  let main_v31 : IVec S_ 1 := (fun x v => Host.reduce IntOp.andi x v reducesTo_S96x64_S_d0_1 h_S_) main_v30 main_c_11
  let main_v32 : IVec S_ 1 := andi main_v28 main_v31
  let main_c_12 : IVec S_ 32 := constantI S_ 32 96#32
  fn_part2 (F := F) main_arg6 main_arg7 main_v32 main_c_12

def fn {F : FTy → Type} [FloatOps F] (main_arg0 : FVec F S8192x64 .f32) (main_arg1 : FVec F S64 .f32) (main_arg2 : FVec F S64 .f32) (main_arg3 : FVec F S96x64x64 .f32) (main_arg4 : FVec F S96x64 .f32) (main_arg5 : FVec F S96x8192x64 .f32) (main_arg6 : IVec S96x64 32) (main_arg7 : IVec S96x64 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S96x64x64 .f32 := Host.absf main_arg3
  let main_cst_4 : FVec F S_ .f32 := constant S_ .f32 0x7F800000#32
  let main_v15 : FVec F S96x64x64 .f32 := broadcastInDim S96x64x64 ![] bcast_S_S96x64x64 main_cst_4
  let main_v16 : IVec S96x64x64 1 := cmpf .olt main_v14 main_v15
  fn_part1 (F := F) main_arg4 main_arg5 main_arg6 main_arg7 main_v13 main_v16
-- ==== Kernel.lean ====
abbrev S8192x64 : Shape := ⟨2, ![8192, 64]⟩
abbrev S64 : Shape := ⟨1, ![64]⟩
abbrev S96x64x64 : Shape := ⟨3, ![96, 64, 64]⟩
abbrev S96x64 : Shape := ⟨2, ![96, 64]⟩
abbrev S96x8192x64 : Shape := ⟨3, ![96, 8192, 64]⟩
abbrev S1x64 : Shape := ⟨2, ![1, 64]⟩
abbrev S_ : Shape := ⟨0, ![]⟩
abbrev S1x64x64 : Shape := ⟨3, ![1, 64, 64]⟩
abbrev S64x64 : Shape := ⟨2, ![64, 64]⟩
abbrev S64x1 : Shape := ⟨2, ![64, 1]⟩
abbrev S1x4096x64 : Shape := ⟨3, ![1, 4096, 64]⟩
abbrev S1 : Shape := ⟨1, ![1]⟩
abbrev S4096x64 : Shape := ⟨2, ![4096, 64]⟩

abbrev nBuf : Space → Nat
  | .hbm => 45
  | .vmem => 9
  | .smem => 3
  | _ => 0

abbrev bufTy : (tb : Table) → Fin (tcTables nBuf tb) → BufTy
  | .hbm, ⟨0, _⟩ => ⟨S8192x64, .f32⟩
  | .hbm, ⟨1, _⟩ => ⟨S64, .f32⟩
  | .hbm, ⟨2, _⟩ => ⟨S64, .f32⟩
  | .hbm, ⟨3, _⟩ => ⟨S96x64x64, .f32⟩
  | .hbm, ⟨4, _⟩ => ⟨S96x64, .f32⟩
  | .hbm, ⟨5, _⟩ => ⟨S96x8192x64, .f32⟩
  | .hbm, ⟨6, _⟩ => ⟨S96x64, .i32⟩
  | .hbm, ⟨7, _⟩ => ⟨S96x64, .i32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S1x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192x64, .f32⟩
  | .hbm, ⟨16, _⟩ => ⟨S8192x64, .f32⟩
  | .hbm, ⟨17, _⟩ => ⟨S1x64, .i32⟩
  | .hbm, ⟨18, _⟩ => ⟨S64, .i32⟩
  | .hbm, ⟨19, _⟩ => ⟨S1x64, .i32⟩
  | .hbm, ⟨20, _⟩ => ⟨S64, .i32⟩
  | .hbm, ⟨21, _⟩ => ⟨S1x64x64, .f32⟩
  | .hbm, ⟨22, _⟩ => ⟨S64x64, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .i32⟩
  | .hbm, ⟨27, _⟩ => ⟨S64, .i32⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S64x1, .i32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S64x1, .i32⟩
  | .hbm, ⟨44, _⟩ => ⟨S8192x64, .f32⟩
  | .local _ .vmem, ⟨0, _⟩ => ⟨S1x4096x64, .f32⟩
  | .local _ .vmem, ⟨1, _⟩ => ⟨S1x4096x64, .f32⟩
  | .local _ .vmem, ⟨2, _⟩ => ⟨S4096x64, .f32⟩
  | .local _ .vmem, ⟨3, _⟩ => ⟨S4096x64, .f32⟩
  | .local _ .vmem, ⟨4, _⟩ => ⟨S64x64, .f32⟩
  | .local _ .vmem, ⟨5, _⟩ => ⟨S1x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .smem, ⟨0, _⟩ => ⟨S64, .i32⟩
  | .local _ .smem, ⟨1, _⟩ => ⟨S64, .i32⟩
  | .local _ .smem, ⟨2, _⟩ => ⟨S64, .i32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_v0 : Ref sig .tc := ⟨.hbm, 26, rfl⟩
abbrev main_call1_v1_0 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v31 : Ref sig .tc := ⟨.hbm, 44, rfl⟩
abbrev main_v23 : Ref sig .tc := ⟨.smem, 0, rfl⟩
abbrev main_v30 : Ref sig .tc := ⟨.smem, 1, rfl⟩
abbrev main_v16 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 64], ![false, false]⟩

abbrev pre0 : Pipeline.Prefetch sig := ⟨3, ![main_v23.idx, main_v30.idx, main_v16.idx], fun | 0 => main_v23.names | 1 => main_v30.names | 2 => main_v16.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (i : grid0.Coords) : BitVec 1 :=
  let arg1 : BitVec 32 := BitVec.ofNat 32 (i 1).val
  let c63_i32 : BitVec 32 := 63#32
  let v32 : BitVec 1 := Scalar.cmpi .eq arg1 c63_i32
  let v33 : BitVec 32 := Scalar.extui v32
  let c0_i32_10 : BitVec 32 := 0#32
  let v34 : BitVec 1 := Scalar.cmpi .ne v33 c0_i32_10
  v34

def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c0_i32 : BitVec 32 := 0#32
  let c0_i32_0 : BitVec 32 := 0#32
  ![v1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  slices_S96x64_S1x64_95_0 : S96x64.Slices ![95, 0] S1x64
  shapeCasts_S1x64_S64 : S1x64.ShapeCasts S64
  slices_S96x64x64_S1x64x64_95_0_0 : S96x64x64.Slices ![95, 0, 0] S1x64x64
  shapeCasts_S1x64x64_S64x64 : S1x64x64.ShapeCasts S64x64
  bcast_S_S64 : S_.BroadcastsInDim S64 (![] : Fin 0 → Fin S64.rank)
  bcast_S64_S64x1_0 : S64.BroadcastsInDim S64x1 (![0] : Fin 1 → Fin S64x1.rank)
  numel1_S1 : S1.numel = 1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  iota_S64x64_d0_w32 : S64x64.Iotas .tc 32 [0]
  iota_S64x64_d1_w32 : S64x64.Iotas .tc 32 [1]
  natLt_1_32 : 1 < 32
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  gather_S64_S64x1_S64_n_0_n_n_0_1_1_wf : GatherDims.WF S64 S64x1 S64 [] [0] [] [0] [] 1 ![1]
  dot_S4096x64_S64x64_S4096x64_1_0_0_1_n_n_wf : DotDims.WF S4096x64 S64x64 S4096x64 [1] [0] [0] [1] [] []
  dot_S4096x64_S64x64_S4096x64_1_1_0_0_n_n_wf : DotDims.WF S4096x64 S64x64 S4096x64 [1] [1] [0] [0] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S8192x64.size a
  hwx0_1 : ∀ i : grid0.Coords, EltTy.bits .f32 = 32 ∨ (Rect.block (s := S8192x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S8192x64.size a
  hwx0_4 : ∀ i : grid0.Coords, EltTy.bits .f32 = 32 ∨ (Rect.block (s := S8192x64) S4096x64.size (cc0_transform_4 i) (hinb0_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf

abbrev spec0_0 : Pipeline.WinSpec sig grid0.rank :=
  Pipeline.WinSpec.ofSpec (Memref.whole main_arg5) S1x4096x64.size reads0_0 false false 2 stage0_0 sem0_0 nbuf0_0 hstage0_0

abbrev spec0_1 : Pipeline.WinSpec sig grid0.rank :=
  Pipeline.WinSpec.ofSpec (Memref.whole main_v6) S4096x64.size reads0_1 false false 2 stage0_1 sem0_1 nbuf0_1 hstage0_1

abbrev spec0_2 : Pipeline.WinSpec sig grid0.rank :=
  Pipeline.WinSpec.ofSpec (Memref.whole main_v12) S64x64.size reads0_2 false true 1 stage0_2 sem0_2 nbuf0_2 hstage0_2

abbrev spec0_3 : Pipeline.WinSpec sig grid0.rank :=
  Pipeline.WinSpec.ofSpec (Memref.whole main_v15) S1x64.size reads0_3 false true 1 stage0_3 sem0_3 nbuf0_3 hstage0_3

abbrev spec0_4 : Pipeline.WinSpec sig grid0.rank :=
  Pipeline.WinSpec.ofSpec (Memref.whole main_v31) S4096x64.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x4096x64.size a ≤ S96x8192x64.size a), EltTy.bits .f32 = 32 ∨ (Rect.block (s := S96x8192x64) S1x4096x64.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | 4 => hwx0_4 | ⟨_ + 5, h⟩ => absurd h (Nat.not_lt.2 (Nat.le_add_left _ _))
abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S8192x64 : Shape := ⟨2, ![8192, 64]⟩
abbrev S64 : Shape := ⟨1, ![64]⟩
abbrev S96x64x64 : Shape := ⟨3, ![96, 64, 64]⟩
abbrev S96x64 : Shape := ⟨2, ![96, 64]⟩
abbrev S96x8192x64 : Shape := ⟨3, ![96, 8192, 64]⟩
abbrev S1x64 : Shape := ⟨2, ![1, 64]⟩
abbrev S_ : Shape := ⟨0, ![]⟩
abbrev S1 : Shape := ⟨1, ![1]⟩
abbrev S96x64x1 : Shape := ⟨3, ![96, 64, 1]⟩
abbrev S96x64x2 : Shape := ⟨3, ![96, 64, 2]⟩
abbrev S96x64x8192 : Shape := ⟨3, ![96, 64, 8192]⟩
abbrev S96x1x64 : Shape := ⟨3, ![96, 1, 64]⟩
abbrev S1x8192x64 : Shape := ⟨3, ![1, 8192, 64]⟩
abbrev S95x8192x64 : Shape := ⟨3, ![95, 8192, 64]⟩

abbrev nBuf : Space → Nat
  | .hbm => 51
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S64, .f32⟩
  | .hbm, ⟨2, _⟩ => ⟨S64, .f32⟩
  | .hbm, ⟨3, _⟩ => ⟨S96x64x64, .f32⟩
  | .hbm, ⟨4, _⟩ => ⟨S96x64, .f32⟩
  | .hbm, ⟨5, _⟩ => ⟨S96x8192x64, .f32⟩
  | .hbm, ⟨6, _⟩ => ⟨S96x64, .i32⟩
  | .hbm, ⟨7, _⟩ => ⟨S96x64, .i32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S1x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192x64, .f32⟩
  | .hbm, ⟨16, _⟩ => ⟨S8192x64, .f32⟩
  | .hbm, ⟨17, _⟩ => ⟨S_, .i32⟩
  | .hbm, ⟨18, _⟩ => ⟨S1, .i32⟩
  | .hbm, ⟨19, _⟩ => ⟨S96x8192x64, .f32⟩
  | .hbm, ⟨20, _⟩ => ⟨S_, .i32⟩
  | .hbm, ⟨21, _⟩ => ⟨S96x64, .i32⟩
  | .hbm, ⟨22, _⟩ => ⟨S96x64, .i1⟩
  | .hbm, ⟨23, _⟩ => ⟨S_, .i32⟩
  | .hbm, ⟨24, _⟩ => ⟨S96x64, .i32⟩
  | .hbm, ⟨25, _⟩ => ⟨S96x64, .i32⟩
  | .hbm, ⟨26, _⟩ => ⟨S96x64, .i32⟩
  | .hbm, ⟨27, _⟩ => ⟨S_, .i32⟩
  | .hbm, ⟨28, _⟩ => ⟨S96x64, .i32⟩
  | .hbm, ⟨29, _⟩ => ⟨S96x64, .i1⟩
  | .hbm, ⟨30, _⟩ => ⟨S_, .i32⟩
  | .hbm, ⟨31, _⟩ => ⟨S96x64, .i32⟩
  | .hbm, ⟨32, _⟩ => ⟨S96x64, .i32⟩
  | .hbm, ⟨33, _⟩ => ⟨S96x64, .i32⟩
  | .hbm, ⟨34, _⟩ => ⟨S96x64x1, .i32⟩
  | .hbm, ⟨35, _⟩ => ⟨S96x64x1, .i32⟩
  | .hbm, ⟨36, _⟩ => ⟨S96x64x2, .i32⟩
  | .hbm, ⟨37, _⟩ => ⟨S96x64x8192, .f32⟩
  | .hbm, ⟨38, _⟩ => ⟨S96x8192x64, .f32⟩
  | .hbm, ⟨39, _⟩ => ⟨S96x8192x64, .f32⟩
  | .hbm, ⟨40, _⟩ => ⟨S96x1x64, .f32⟩
  | .hbm, ⟨41, _⟩ => ⟨S96x8192x64, .f32⟩
  | .hbm, ⟨42, _⟩ => ⟨S96x8192x64, .f32⟩
  | .hbm, ⟨43, _⟩ => ⟨S1x8192x64, .f32⟩
  | .hbm, ⟨44, _⟩ => ⟨S95x8192x64, .f32⟩
  | .hbm, ⟨45, _⟩ => ⟨S_, .f32⟩
  | .hbm, ⟨46, _⟩ => ⟨S95x8192x64, .f32⟩
  | .hbm, ⟨47, _⟩ => ⟨S95x8192x64, .f32⟩
  | .hbm, ⟨48, _⟩ => ⟨S96x8192x64, .f32⟩
  | .hbm, ⟨49, _⟩ => ⟨S1x8192x64, .f32⟩
  | .hbm, ⟨50, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S_S1 : S_.BroadcastsInDim S1 (![] : Fin 0 → Fin S1.rank)
  bcast_S_S96x64 : S_.BroadcastsInDim S96x64 (![] : Fin 0 → Fin S96x64.rank)
  bcast_S96x64_S96x64x1_0_1 : S96x64.BroadcastsInDim S96x64x1 (![0, 1] : Fin 2 → Fin S96x64x1.rank)
  concatenates_S96x64x1_S96x64x1_S96x64x2_d2 : Shape.Concatenates [S96x64x1, S96x64x1] S96x64x2 2
  transposes_S96x64x8192_S96x8192x64_0_2_1 : S96x64x8192.Transposes [0, 2, 1] S96x8192x64
  bcast_S96x64_S96x1x64_0_2 : S96x64.BroadcastsInDim S96x1x64 (![0, 2] : Fin 2 → Fin S96x1x64.rank)
  bcast_S96x1x64_S96x8192x64_0_1_2 : S96x1x64.BroadcastsInDim S96x8192x64 (![0, 1, 2] : Fin 3 → Fin S96x8192x64.rank)
  slices_S96x8192x64_S1x8192x64_0_0_0 : S96x8192x64.Slices ![0, 0, 0] S1x8192x64
  slices_S96x8192x64_S95x8192x64_1_0_0 : S96x8192x64.Slices ![1, 0, 0] S95x8192x64
  bcast_S_S95x8192x64 : S_.BroadcastsInDim S95x8192x64 (![] : Fin 0 → Fin S95x8192x64.rank)
  concatenates_S1x8192x64_S95x8192x64_S96x8192x64_d0 : Shape.Concatenates [S1x8192x64, S95x8192x64] S96x8192x64 0
  slices_S96x8192x64_S1x8192x64_95_0_0 : S96x8192x64.Slices ![95, 0, 0] S1x8192x64
  shapeCasts_S1x8192x64_S8192x64 : S1x8192x64.ShapeCasts S8192x64
  scatter_S96x8192x64_S1_S8192x64_01_0_0_0_wf : ScatterDims.WF S96x8192x64 S1 S8192x64 [0, 1] [0] [0] 0
  gather_S96x8192x64_S96x64x2_S96x64x8192_2_02_n_n_02_2_181921_wf : GatherDims.WF S96x8192x64 S96x64x2 S96x64x8192 [2] [0, 2] [] [0, 2] [] 2 ![1, 8192, 1]
  dot_S96x8192x64_S96x64x64_S96x8192x64_2_2_1_1_0_0_wf : DotDims.WF S96x8192x64 S96x64x64 S96x8192x64 [2] [2] [1] [1] [0] [0]

variable [Facts₀]

def scatter_S96x8192x64_S1_S8192x64_01_0_0_0 : ScatterDims S96x8192x64 S1 S8192x64 where
  updateWindowDims := [0, 1]
  insertedWindowDims := [0]
  scatterDimsToOperandDims := [0]
  indexVectorDim := 0
  wf := scatter_S96x8192x64_S1_S8192x64_01_0_0_0_wf
def gather_S96x8192x64_S96x64x2_S96x64x8192_2_02_n_n_02_2_181921 : GatherDims S96x8192x64 S96x64x2 S96x64x8192 where
  offsetDims := [2]
  collapsedSliceDims := [0, 2]
  operandBatchingDims := []
  startIndicesBatchingDims := []
  startIndexMap := [0, 2]
  indexVectorDim := 2
  sliceSizes := ![1, 8192, 1]
  wf := gather_S96x8192x64_S96x64x2_S96x64x8192_2_02_n_n_02_2_181921_wf
def dot_S96x8192x64_S96x64x64_S96x8192x64_2_2_1_1_0_0 : DotDims S96x8192x64 S96x64x64 S96x8192x64 where
  lhsContracting := [2]
  rhsContracting := [2]
  lhsNonContracting := [1]
  rhsNonContracting := [1]
  lhsBatch := [0]
  rhsBatch := [0]
  wf := dot_S96x8192x64_S96x64x64_S96x8192x64_2_2_1_1_0_0_wf

class Facts : Prop extends Facts₀ where

variable [Facts]
-- ==== Proof.Spec.lean ====
/-
  What both programs compute, as one function of the eight argument arrays on the extended reals.

  The network has 96 nodes of width 64 over a batch of 8192 rows, and only node 95's output is returned.
  The input layer's trace is max(x·w_in + b_in, 0), channel by channel. The gather table T has the trace as
  its layer 0 and the hidden state h[l] as its layer l > 0. Node 95 gathers, for its input d, the entry
  T[src_layer[95,d], r, src_feat[95,d]] of batch row r, applies its linear layer W[95] (out × in) and bias
  Bi[95], and takes the positive part:

      G[r,o] = max( ∑_d T[src_layer[95,d], r, src_feat[95,d]] · W[95,o,d] + Bi[95,o], 0 ).

  A word is read as a layer (feature) number clamped into the 96 layers (64 features); on the index domain
  `InRange` — every entry of src_layer below 96 and every entry of src_feat below 64, read unsigned, which is
  0 ≤ · < 96 and 0 ≤ · < 64 read signed — the clamp is the identity.
-/
import Idealize.ShloMosaic.PureOps.Ideal
import Idealize.ShloMosaic.Lib.ValueIdx

noncomputable section

namespace Cert.Spec

open Idealize.ShloMosaic Idealize.ShloMosaic.ValueIdx
open scoped BigOperators

/-- The shapes of the arguments: x and the result; w_in and b_in; W; Bi, src_layer and src_feat; h. -/
abbrev SX : Shape := ⟨2, ![8192, 64]⟩
abbrev SV : Shape := ⟨1, ![64]⟩
abbrev SW : Shape := ⟨3, ![96, 64, 64]⟩
abbrev SB : Shape := ⟨2, ![96, 64]⟩
abbrev SH : Shape := ⟨3, ![96, 8192, 64]⟩

/-- A word read as a layer number, clamped into the 96 layers. -/
def layer (w : BitVec 32) : Fin 96 := ⟨min w.toNat 95, by omega⟩

/-- A word read as a feature number, clamped into the 64 features. -/
def feat (w : BitVec 32) : Fin 64 := ⟨min w.toNat 63, by omega⟩

theorem layer_val_of_lt {w : BitVec 32} (h : w.toNat < 96) : (layer w).val = w.toNat := by
  show min w.toNat 95 = w.toNat; omega

theorem feat_val_of_lt {w : BitVec 32} (h : w.toNat < 64) : (feat w).val = w.toNat := by
  show min w.toNat 63 = w.toNat; omega

/-- The input layer's trace at batch row r and channel k: scale, bias, positive part. -/
def trace (x : SX.Idx → EReal) (w b : SV.Idx → EReal) (r : Fin 8192) (k : Fin 64) : EReal :=
  max (x (ix2 r k) * w (ix1 k) + b (ix1 k)) 0

/-- The gather table: layer 0 is the input trace, layer l > 0 is the hidden state h[l]. -/
def table (x : SX.Idx → EReal) (w b : SV.Idx → EReal) (h : SH.Idx → EReal) (l : Fin 96) (r : Fin 8192) (k : Fin 64) : EReal :=
  if l.val = 0 then trace x w b r k else h (ix3 l r k)

/-- What node 95 gathers for batch row r at its input d. -/
def gathered (x : SX.Idx → EReal) (w b : SV.Idx → EReal) (h : SH.Idx → EReal) (sl sf : SB.Idx → BitVec 32)
    (r : Fin 8192) (d : Fin 64) : EReal :=
  table x w b h (layer (sl (ix2 95 d))) r (feat (sf (ix2 95 d)))

/-- Node 95's output: its linear layer over what it gathers, its bias, the positive part. -/
def G (x : SX.Idx → EReal) (w b : SV.Idx → EReal) (W : SW.Idx → EReal) (Bi : SB.Idx → EReal) (h : SH.Idx → EReal)
    (sl sf : SB.Idx → BitVec 32) : SX.Idx → EReal := fun i =>
  max ((∑ d : Fin 64, gathered x w b h sl sf (i 0) d * W (ix3 95 (i 1) d)) + Bi (ix2 95 (i 1))) 0

/-- The index domain: every entry of src_layer names one of the 96 layers, every entry of src_feat one of the 64 features. -/
def InRange (sl sf : SB.Idx → BitVec 32) : Prop := (∀ i, (sl i).toNat < 96) ∧ (∀ i, (sf i).toNat < 64)

end Cert.Spec

end
-- ==== Proof.IndexDomain.lean ====
/-
  The integer inputs' domain, read out of the precondition.

  The precondition is a conjunction of nine `all`-reductions joined by `and`; the last four say of every entry of
  src_layer that 0 ≤ · and · < 96, and of every entry of src_feat that 0 ≤ · and · < 64, the words read as signed
  integers. A word whose signed reading lies in [0, n) has that same unsigned reading, so every entry of src_layer is
  below 96 and every entry of src_feat below 64 read unsigned: `Spec.InRange`. The float conjuncts are not opened.
-/
import proofs.«422501_j76562087018544_2_alg».proof.Pre_finite_inputs
import proofs.«422501_j76562087018544_2_alg».proof.Proof.Spec
import Idealize.ShloMosaic.Lib.ReduceAll
import Idealize.ShloMosaic.Lib.Affine

noncomputable section

namespace Cert.IndexDomain

open Idealize.ShloMosaic Cert.Pre_finite_inputs

/-- A word whose signed reading lies in [0, n) is below n read unsigned. -/
theorem toNat_lt_of_toInt (w : BitVec 32) (n : ℕ) (h0 : 0 ≤ w.toInt) (h1 : w.toInt < (n : ℤ)) : w.toNat < n := by
  have hw := w.isLt
  rw [BitVec.toInt_eq_toNat_cond] at h0 h1
  by_cases hc : 2 * w.toNat < 2 ^ 32
  · rw [if_pos hc] at h0 h1; omega
  · rw [if_neg hc] at h0 h1; omega

/-- The scalar shape has one index. -/
instance : Subsingleton S_.Idx := ⟨fun a b => funext fun d => d.elim0⟩

/-- The precondition gives the index domain, at any instance of the floats. -/
theorem inRange_of_pre {F : FTy → Type} [FloatOps F] [Facts]
    (a0 : FVec F S8192x64 .f32) (a1 a2 : FVec F S64 .f32) (a3 : FVec F S96x64x64 .f32) (a4 : FVec F S96x64 .f32)
    (a5 : FVec F S96x8192x64 .f32) (a6 a7 : IVec S96x64 32)
    (h : fn (F := F) a0 a1 a2 a3 a4 a5 a6 a7 = fun _ => 1#1) : Cert.Spec.InRange a6 a7 := by
  have e := congrFun h ValueIdx.ix0
  dsimp only [fn, fn_part1, fn_part2] at e
  simp only [andi, IntOp.andi_eq_one] at e
  obtain ⟨⟨⟨⟨-, hA⟩, hB⟩, hC⟩, hD⟩ := e
  refine ⟨fun i => ?_, fun i => ?_⟩
  · have a := Host.reduce_andi_all _ _ _ _ _ hA i
    have b := Host.reduce_andi_all _ _ _ _ _ hB i
    simp only [cmpi, broadcastInDim, constantI, IntOp.cmpi_sge, IntOp.cmpi_slt] at a b
    exact toNat_lt_of_toInt _ 96 (by simpa using a) (by simpa using b)
  · have a := Host.reduce_andi_all _ _ _ _ _ hC i
    have b := Host.reduce_andi_all _ _ _ _ _ hD i
    simp only [cmpi, broadcastInDim, constantI, IntOp.cmpi_sge, IntOp.cmpi_slt] at a b
    exact toNat_lt_of_toInt _ 64 (by simpa using a) (by simpa using b)

end Cert.IndexDomain

end
-- ==== Proof.KernelTables.lean ====
/-
  The three tables the kernel is launched with, at any instance of the floats.

  The host sorts row 95 of src_layer stably, carrying the positions 0 … 63 along: position d of the sorted order holds
  source position `perm m d`, and `perm m` is a permutation of the 64 positions. Table 0 is row 95 of src_layer read
  through it, table 1 row 95 of src_feat read through it, table 2 the permutation itself as words. On the index domain
  every word of table 0 names one of the 96 layers, which is what the launch asks of the tables.

  How the tables are read. Row 95 of a [96, 64] array, sliced out and flattened, is at position d the array's entry
  (95, d). The sort of the pairs (key, position) along the one axis reads both operands through one self-map of the
  positions, so its second component at d is the word of the position the sort puts at d. That word lies in 0 … 63, so
  the "add 64 where negative" step leaves it alone, and a take at it, read signed and clamped into 0 … 63, reads the
  operand at that very position.
-/
import proofs.«422501_j76562087018544_2_alg».proof.Proof.KernelFrameRuns
import proofs.«422501_j76562087018544_2_alg».proof.Proof.Spec
import Idealize.ShloMosaic.Lib.SortFacts
import Idealize.ShloMosaic.Lib.StableHlo.Predicate
import Idealize.ShloMosaic.Lib.ValueLayout

noncomputable section

namespace Cert.Kernel.Tables

open Idealize.ShloMosaic Idealize.ShloMosaic.TcCoe Idealize.SL.Sem Idealize.ShloMosaic.ValueIdx
open Cert.Kernel Cert.Kernel.Gen Cert.Kernel.GenP
open Idealize.ShloMosaic.StableHlo Idealize.ShloMosaic.StableHlo.Predicate

variable {F : FTy → Type} [FloatOps F] (m : (ℓ : Loc nD τ sig) → Buf (Elt F) ℓ)

/-- Row 95 of src_layer and of src_feat, as launched. -/
def slRow (d : Fin 64) : BitVec 32 := m (((0 : Dev nD) : Thread nD τ).loc main_arg6) (ix2 95 d)
def sfRow (d : Fin 64) : BitVec 32 := m (((0 : Dev nD) : Thread nD τ).loc main_arg7) (ix2 95 d)

/-- The stable sort's permutation of the 64 positions: sorted position d holds source position `perm m d`. -/
def perm : Fin 64 → Fin 64 :=
  sortedFrom fun k k' => comparator_i32_i32_d0 (slRow m k, BitVec.ofNat 32 k.val) (slRow m k', BitVec.ofNat 32 k'.val) == 1#1

theorem perm_injective : Function.Injective (perm m) := sortedFrom_injective _
theorem perm_surjective : Function.Surjective (perm m) := sortedFrom_surjective _

/-! ## The host operations, one at a time, at any extent -/

/-- The rank-1 index at coordinate k, in its two spellings. -/
theorem ofFin_eq_ix1 {n : Nat} (k : Fin n) : Shape.Idx.ofFin k = ix1 k :=
  (eq_ix1 _).trans (congrArg ix1 (Shape.Idx.ofFin_zero k))

/-- The positions along a vector's one axis, as words. -/
theorem iota_ix1 {n w : Nat} (p : Fin n) : iotaInDim (⟨1, ![n]⟩ : Shape) w 0 (ix1 p) = BitVec.ofNat w p.val := rfl

/-- On a vector, the second component of a two-operand sort reads the second operand through the one sorting self-map of
    the positions: the stable sort of the positions by the comparator on the pairs. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (ix1 (sortedFrom (fun k k' => cmp (x (ix1 k), y (ix1 k)) (x (ix1 k'), y (ix1 k')) == 1#1) (j 0))) := by
  unfold Host.sort2
  simp [ofFin_eq_ix1]

theorem sort2_snd_ix1 {n : Nat} {α β : Type} (cmp : α × β → α × β → BitVec 1)
    (x : (⟨1, ![n]⟩ : Shape).Idx → α) (y : (⟨1, ![n]⟩ : Shape).Idx → β) (d : Fin n) :
    (Host.sort2 ⟨1, ![n]⟩ 0 cmp x y).2 (ix1 d)
      = y (ix1 (sortedFrom (fun k k' => cmp (x (ix1 k), y (ix1 k)) (x (ix1 k'), y (ix1 k')) == 1#1) d)) :=
  sort2_snd_rank1 cmp x y (ix1 d)

/-- Row 95 of a [96, 64] array, sliced out and flattened to [64], holds at d the array's entry (95, d). -/
def rowOf (X : S96x64.Idx → BitVec 32) : S64.Idx → BitVec 32 :=
  shapeCast S64 (extractStridedSlice S1x64 ![95, 0] X slices_S96x64_S1x64_95_0) shapeCasts_S1x64_S64

theorem rowOf_apply (X : S96x64.Idx → BitVec 32) (d : Fin 64) : rowOf X (ix1 d) = X (ix2 95 d) := by
  unfold rowOf
  rw [shapeCast_1a_a_apply, slice2_axis0_apply 95 X _ 0 d 95 rfl]

/-- The positions in sorted order, as words: the sort of (keys, positions) by the comparator, second component. -/
def sortedPos (keys : S64.Idx → BitVec 32) : S64.Idx → BitVec 32 :=
  (Host.sort2 S64 0 comparator_i32_i32_d0 keys (iotaInDim S64 32 0)).2

/-- A vector of positions with 64 added where negative, as a [64, 1] column of start indices. -/
def wrapCol (s : S64.Idx → BitVec 32) : S64x1.Idx → BitVec 32 :=
  broadcastInDim S64x1 ![0] bcast_S64_S64x1_0
    (select (cmpi .slt s (broadcastInDim S64 ![] bcast_S_S64 (constantI S_ 32 0#32)))
      (addi s (broadcastInDim S64 ![] bcast_S_S64 (constantI S_ 32 64#32))) s)

/-- A word that is a position below 64 is not negative: the wrap leaves it alone. -/
theorem wrap_word (p : Nat) (hp : p < 64) :
    Scalar.select (IntOp.cmpi .slt (BitVec.ofNat 32 p) 0#32) (IntOp.addi (BitVec.ofNat 32 p) 64#32) (BitVec.ofNat 32 p)
      = BitVec.ofNat 32 p := by
  have h : ¬ IntOp.cmpi .slt (BitVec.ofNat 32 p) 0#32 = 1#1 := by
    rw [slt_iff_toNat (by simp only [BitVec.toNat_ofNat]; omega) (by decide)]
    exact Nat.not_lt_zero _
  exact if_neg h

theorem wrapCol_apply (s : S64.Idx → BitVec 32) (d p : Fin 64) (hs : s (ix1 d) = BitVec.ofNat 32 p.val) :
    wrapCol s (ixP d) = BitVec.ofNat 32 p.val := by
  unfold wrapCol
  rw [bcast_col1, ofFin_eq_ix1]
  show Scalar.select (IntOp.cmpi .slt (s (ix1 d)) (broadcastInDim S64 ![] bcast_S_S64 (constantI S_ 32 0#32) (ix1 d)))
      (IntOp.addi (s (ix1 d)) (broadcastInDim S64 ![] bcast_S_S64 (constantI S_ 32 64#32) (ix1 d))) (s (ix1 d)) = _
  rw [bcast_scalar _ (by decide), bcast_scalar _ (by decide), hs]
  exact wrap_word p.val p.isLt

/-- A take of a [64] vector at a column of start indices whose word at d is the position p reads the vector at p. -/
theorem take_apply (x : S64.Idx → BitVec 32) (idx : S64x1.Idx → BitVec 32) (d p : Fin 64)
    (hi : idx (ixP d) = BitVec.ofNat 32 p.val) :
    Host.gather gather_S64_S64x1_S64_n_0_n_n_0_1_1 x idx (ix1 d) = x (ix1 p) := by
  rw [← ofFin_eq_ix1, gather_take gather_S64_S64x1_S64_n_0_n_n_0_1_1 rfl rfl rfl rfl x idx d (by decide), ofFin_eq_ix1]
  refine congrArg x (congrArg ix1 (Fin.ext ?_))
  show min (idx (ixP d)).toInt.toNat (64 - 1) = p.val
  have := p.isLt
  rw [hi, toInt_ofNat_small p.val (by omega), Int.toNat_natCast]
  omega

/-! ## The buffers the region finds -/

set_option maxHeartbeats 1000000 in
/-- The sorted positions: row 95 of src_layer sorted with the positions carried along. -/
theorem V_v16 : (V m (0 : Dev nD) main_v16 : S64.Idx → BitVec 32)
    = sortedPos (rowOf (m (((0 : Dev nD) : Thread nD τ).loc main_arg6))) := by
  unfold V
  simp only [hostOps0, hostOps0_1, hostOps0_2, hostOps0_3, hostOps0_4, List.flatten_cons, List.flatten_nil, List.append_nil,
    List.cons_append, List.nil_append]
  after_results
  simp only [TRef.ofBuf, TRef.toBuf, cast_eq]
  rfl

set_option maxHeartbeats 1000000 in
/-- Row 95 of src_layer taken at the sorted positions. -/
theorem V_v23 : (V m (0 : Dev nD) main_v23 : S64.Idx → BitVec 32)
    = Host.gather gather_S64_S64x1_S64_n_0_n_n_0_1_1 (rowOf (m (((0 : Dev nD) : Thread nD τ).loc main_arg6)))
        (wrapCol (sortedPos (rowOf (m (((0 : Dev nD) : Thread nD τ).loc main_arg6))))) := by
  unfold V
  simp only [hostOps0, hostOps0_1, hostOps0_2, hostOps0_3, hostOps0_4, List.flatten_cons, List.flatten_nil, List.append_nil,
    List.cons_append, List.nil_append]
  after_results
  simp only [TRef.ofBuf, TRef.toBuf, cast_eq]
  rfl

set_option maxHeartbeats 1000000 in
/-- Row 95 of src_feat taken at the sorted positions. -/
theorem V_v30 : (V m (0 : Dev nD) main_v30 : S64.Idx → BitVec 32)
    = Host.gather gather_S64_S64x1_S64_n_0_n_n_0_1_1 (rowOf (m (((0 : Dev nD) : Thread nD τ).loc main_arg7)))
        (wrapCol (sortedPos (rowOf (m (((0 : Dev nD) : Thread nD τ).loc main_arg6))))) := by
  unfold V
  simp only [hostOps0, hostOps0_1, hostOps0_2, hostOps0_3, hostOps0_4, List.flatten_cons, List.flatten_nil, List.append_nil,
    List.cons_append, List.nil_append]
  after_results
  simp only [TRef.ofBuf, TRef.toBuf, cast_eq]
  rfl

/-! ## The tables read at a position -/

/-- The sorted positions at d: the word of the position the sort puts there. -/
theorem sortedPos_apply (d : Fin 64) :
    sortedPos (rowOf (m (((0 : Dev nD) : Thread nD τ).loc main_arg6))) (ix1 d) = BitVec.ofNat 32 (perm m d).val := by
  unfold sortedPos
  rw [sort2_snd_ix1, iota_ix1]
  simp only [rowOf_apply, iota_ix1]
  rfl

theorem tbl2 (d : Fin 64) : tbl m 2 (ix1 d) = BitVec.ofNat 32 (perm m d).val := by
  unfold tbl
  show (V m (0 : Dev nD) main_v16 : S64.Idx → BitVec 32) (ix1 d) = _
  rw [V_v16]
  exact sortedPos_apply m d

theorem tbl0 (d : Fin 64) : tbl m 0 (ix1 d) = slRow m (perm m d) := by
  unfold tbl
  show (V m (0 : Dev nD) main_v23 : S64.Idx → BitVec 32) (ix1 d) = _
  rw [V_v23, take_apply _ _ d (perm m d) (wrapCol_apply _ d (perm m d) (sortedPos_apply m d)), rowOf_apply]
  rfl

theorem tbl1 (d : Fin 64) : tbl m 1 (ix1 d) = sfRow m (perm m d) := by
  unfold tbl
  show (V m (0 : Dev nD) main_v30 : S64.Idx → BitVec 32) (ix1 d) = _
  rw [V_v30, take_apply _ _ d (perm m d) (wrapCol_apply _ d (perm m d) (sortedPos_apply m d)), rowOf_apply]
  rfl

/-! ## The launch's condition on the tables -/

/-- Window 0's block index at a grid point, at any contents of the tables: some word of table 0, the grid's first
    coordinate, and 0. -/
theorem transform0_eq (pf : pre0.Contents (Elt F)) (i : grid0.Coords) :
    ∃ x : S64.Idx, cc0_transform_0 k0_off1_inb numel1_S1 pf i
      = ![(pf 0 x : BitVec 32).toNat, (BitVec.ofNat 32 (i 0).val).toNat, (0#32 : BitVec 32).toNat] := ⟨_, rfl⟩

theorem ok_of_inRange
    (h : Cert.Spec.InRange (m (((0 : Dev nD) : Thread nD τ).loc main_arg6)) (m (((0 : Dev nD) : Thread nD τ).loc main_arg7))) :
    Ok m := by
  intro i
  obtain ⟨x, e⟩ := transform0_eq (tbl m) i
  obtain ⟨d, rfl⟩ : ∃ d : Fin 64, x = ix1 d := ⟨x 0, eq_ix1 x⟩
  have hw : (tbl m 0 (ix1 d) : BitVec 32).toNat < 96 := by
    rw [tbl0]
    exact h.1 _
  have h0 : (i 0).val < 2 := (i 0).isLt
  refine ⟨fun a => ?_, Or.inl rfl⟩
  rw [e]
  generalize (tbl m 0 (ix1 d) : BitVec 32).toNat = w at hw
  generalize (i 0).val = g at h0
  fin_cases a
  · show (w + 1) * 1 ≤ 96
    omega
  · show ((BitVec.ofNat 32 g).toNat + 1) * 4096 ≤ 8192
    rw [BitVec.toNat_ofNat]
    omega
  · show (0 + 1) * 64 ≤ 64
    omega

attribute [irreducible] perm

end Cert.Kernel.Tables

end
-- ==== Proof.KernelIdealTables.lean ====
/-
  The three tables the kernel is launched with, at any instance of the floats.

  The host sorts row 95 of src_layer stably, carrying the positions 0 … 63 along: position d of the sorted order holds
  source position `perm m d`, and `perm m` is a permutation of the 64 positions. Table 0 is row 95 of src_layer read
  through it, table 1 row 95 of src_feat read through it, table 2 the permutation itself as words. On the index domain
  every word of table 0 names one of the 96 layers, which is what the launch asks of the tables.

  How the tables are read. Row 95 of a [96, 64] array, sliced out and flattened, is at position d the array's entry
  (95, d). The sort of the pairs (key, position) along the one axis reads both operands through one self-map of the
  positions, so its second component at d is the word of the position the sort puts at d. That word lies in 0 … 63, so
  the "add 64 where negative" step leaves it alone, and a take at it, read signed and clamped into 0 … 63, reads the
  operand at that very position.
-/
import proofs.«422501_j76562087018544_2_alg».proof.Proof.KernelIdealFrameRuns
import proofs.«422501_j76562087018544_2_alg».proof.Proof.Spec
import Idealize.ShloMosaic.Lib.SortFacts
import Idealize.ShloMosaic.Lib.StableHlo.Predicate
import Idealize.ShloMosaic.Lib.ValueLayout

noncomputable section

namespace Cert.KernelIdeal.Tables

open Idealize.ShloMosaic Idealize.ShloMosaic.TcCoe Idealize.SL.Sem Idealize.ShloMosaic.ValueIdx
open Cert.KernelIdeal Cert.KernelIdeal.Gen Cert.KernelIdeal.GenP
open Idealize.ShloMosaic.StableHlo Idealize.ShloMosaic.StableHlo.Predicate

variable {F : FTy → Type} [FloatOps F] (m : (ℓ : Loc nD τ sig) → Buf (Elt F) ℓ)

/-- Row 95 of src_layer and of src_feat, as launched. -/
def slRow (d : Fin 64) : BitVec 32 := m (((0 : Dev nD) : Thread nD τ).loc main_arg6) (ix2 95 d)
def sfRow (d : Fin 64) : BitVec 32 := m (((0 : Dev nD) : Thread nD τ).loc main_arg7) (ix2 95 d)

/-- The stable sort's permutation of the 64 positions: sorted position d holds source position `perm m d`. -/
def perm : Fin 64 → Fin 64 :=
  sortedFrom fun k k' => comparator_i32_i32_d0 (slRow m k, BitVec.ofNat 32 k.val) (slRow m k', BitVec.ofNat 32 k'.val) == 1#1

theorem perm_injective : Function.Injective (perm m) := sortedFrom_injective _
theorem perm_surjective : Function.Surjective (perm m) := sortedFrom_surjective _

/-! ## The host operations, one at a time, at any extent -/

/-- The rank-1 index at coordinate k, in its two spellings. -/
theorem ofFin_eq_ix1 {n : Nat} (k : Fin n) : Shape.Idx.ofFin k = ix1 k :=
  (eq_ix1 _).trans (congrArg ix1 (Shape.Idx.ofFin_zero k))

/-- The positions along a vector's one axis, as words. -/
theorem iota_ix1 {n w : Nat} (p : Fin n) : iotaInDim (⟨1, ![n]⟩ : Shape) w 0 (ix1 p) = BitVec.ofNat w p.val := rfl

/-- On a vector, the second component of a two-operand sort reads the second operand through the one sorting self-map of
    the positions: the stable sort of the positions by the comparator on the pairs. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (ix1 (sortedFrom (fun k k' => cmp (x (ix1 k), y (ix1 k)) (x (ix1 k'), y (ix1 k')) == 1#1) (j 0))) := by
  unfold Host.sort2
  simp [ofFin_eq_ix1]

theorem sort2_snd_ix1 {n : Nat} {α β : Type} (cmp : α × β → α × β → BitVec 1)
    (x : (⟨1, ![n]⟩ : Shape).Idx → α) (y : (⟨1, ![n]⟩ : Shape).Idx → β) (d : Fin n) :
    (Host.sort2 ⟨1, ![n]⟩ 0 cmp x y).2 (ix1 d)
      = y (ix1 (sortedFrom (fun k k' => cmp (x (ix1 k), y (ix1 k)) (x (ix1 k'), y (ix1 k')) == 1#1) d)) :=
  sort2_snd_rank1 cmp x y (ix1 d)

/-- Row 95 of a [96, 64] array, sliced out and flattened to [64], holds at d the array's entry (95, d). -/
def rowOf (X : S96x64.Idx → BitVec 32) : S64.Idx → BitVec 32 :=
  shapeCast S64 (extractStridedSlice S1x64 ![95, 0] X slices_S96x64_S1x64_95_0) shapeCasts_S1x64_S64

theorem rowOf_apply (X : S96x64.Idx → BitVec 32) (d : Fin 64) : rowOf X (ix1 d) = X (ix2 95 d) := by
  unfold rowOf
  rw [shapeCast_1a_a_apply, slice2_axis0_apply 95 X _ 0 d 95 rfl]

/-- The positions in sorted order, as words: the sort of (keys, positions) by the comparator, second component. -/
def sortedPos (keys : S64.Idx → BitVec 32) : S64.Idx → BitVec 32 :=
  (Host.sort2 S64 0 comparator_i32_i32_d0 keys (iotaInDim S64 32 0)).2

/-- A vector of positions with 64 added where negative, as a [64, 1] column of start indices. -/
def wrapCol (s : S64.Idx → BitVec 32) : S64x1.Idx → BitVec 32 :=
  broadcastInDim S64x1 ![0] bcast_S64_S64x1_0
    (select (cmpi .slt s (broadcastInDim S64 ![] bcast_S_S64 (constantI S_ 32 0#32)))
      (addi s (broadcastInDim S64 ![] bcast_S_S64 (constantI S_ 32 64#32))) s)

/-- A word that is a position below 64 is not negative: the wrap leaves it alone. -/
theorem wrap_word (p : Nat) (hp : p < 64) :
    Scalar.select (IntOp.cmpi .slt (BitVec.ofNat 32 p) 0#32) (IntOp.addi (BitVec.ofNat 32 p) 64#32) (BitVec.ofNat 32 p)
      = BitVec.ofNat 32 p := by
  have h : ¬ IntOp.cmpi .slt (BitVec.ofNat 32 p) 0#32 = 1#1 := by
    rw [slt_iff_toNat (by simp only [BitVec.toNat_ofNat]; omega) (by decide)]
    exact Nat.not_lt_zero _
  exact if_neg h

theorem wrapCol_apply (s : S64.Idx → BitVec 32) (d p : Fin 64) (hs : s (ix1 d) = BitVec.ofNat 32 p.val) :
    wrapCol s (ixP d) = BitVec.ofNat 32 p.val := by
  unfold wrapCol
  rw [bcast_col1, ofFin_eq_ix1]
  show Scalar.select (IntOp.cmpi .slt (s (ix1 d)) (broadcastInDim S64 ![] bcast_S_S64 (constantI S_ 32 0#32) (ix1 d)))
      (IntOp.addi (s (ix1 d)) (broadcastInDim S64 ![] bcast_S_S64 (constantI S_ 32 64#32) (ix1 d))) (s (ix1 d)) = _
  rw [bcast_scalar _ (by decide), bcast_scalar _ (by decide), hs]
  exact wrap_word p.val p.isLt

/-- A take of a [64] vector at a column of start indices whose word at d is the position p reads the vector at p. -/
theorem take_apply (x : S64.Idx → BitVec 32) (idx : S64x1.Idx → BitVec 32) (d p : Fin 64)
    (hi : idx (ixP d) = BitVec.ofNat 32 p.val) :
    Host.gather gather_S64_S64x1_S64_n_0_n_n_0_1_1 x idx (ix1 d) = x (ix1 p) := by
  rw [← ofFin_eq_ix1, gather_take gather_S64_S64x1_S64_n_0_n_n_0_1_1 rfl rfl rfl rfl x idx d (by decide), ofFin_eq_ix1]
  refine congrArg x (congrArg ix1 (Fin.ext ?_))
  show min (idx (ixP d)).toInt.toNat (64 - 1) = p.val
  have := p.isLt
  rw [hi, toInt_ofNat_small p.val (by omega), Int.toNat_natCast]
  omega

/-! ## The buffers the region finds -/

set_option maxHeartbeats 1000000 in
/-- The sorted positions: row 95 of src_layer sorted with the positions carried along. -/
theorem V_v16 : (V m (0 : Dev nD) main_v16 : S64.Idx → BitVec 32)
    = sortedPos (rowOf (m (((0 : Dev nD) : Thread nD τ).loc main_arg6))) := by
  unfold V
  simp only [hostOps0, hostOps0_1, hostOps0_2, hostOps0_3, hostOps0_4, List.flatten_cons, List.flatten_nil, List.append_nil,
    List.cons_append, List.nil_append]
  after_results
  simp only [TRef.ofBuf, TRef.toBuf, cast_eq]
  rfl

set_option maxHeartbeats 1000000 in
/-- Row 95 of src_layer taken at the sorted positions. -/
theorem V_v23 : (V m (0 : Dev nD) main_v23 : S64.Idx → BitVec 32)
    = Host.gather gather_S64_S64x1_S64_n_0_n_n_0_1_1 (rowOf (m (((0 : Dev nD) : Thread nD τ).loc main_arg6)))
        (wrapCol (sortedPos (rowOf (m (((0 : Dev nD) : Thread nD τ).loc main_arg6))))) := by
  unfold V
  simp only [hostOps0, hostOps0_1, hostOps0_2, hostOps0_3, hostOps0_4, List.flatten_cons, List.flatten_nil, List.append_nil,
    List.cons_append, List.nil_append]
  after_results
  simp only [TRef.ofBuf, TRef.toBuf, cast_eq]
  rfl

set_option maxHeartbeats 1000000 in
/-- Row 95 of src_feat taken at the sorted positions. -/
theorem V_v30 : (V m (0 : Dev nD) main_v30 : S64.Idx → BitVec 32)
    = Host.gather gather_S64_S64x1_S64_n_0_n_n_0_1_1 (rowOf (m (((0 : Dev nD) : Thread nD τ).loc main_arg7)))
        (wrapCol (sortedPos (rowOf (m (((0 : Dev nD) : Thread nD τ).loc main_arg6))))) := by
  unfold V
  simp only [hostOps0, hostOps0_1, hostOps0_2, hostOps0_3, hostOps0_4, List.flatten_cons, List.flatten_nil, List.append_nil,
    List.cons_append, List.nil_append]
  after_results
  simp only [TRef.ofBuf, TRef.toBuf, cast_eq]
  rfl

/-! ## The tables read at a position -/

/-- The sorted positions at d: the word of the position the sort puts there. -/
theorem sortedPos_apply (d : Fin 64) :
    sortedPos (rowOf (m (((0 : Dev nD) : Thread nD τ).loc main_arg6))) (ix1 d) = BitVec.ofNat 32 (perm m d).val := by
  unfold sortedPos
  rw [sort2_snd_ix1, iota_ix1]
  simp only [rowOf_apply, iota_ix1]
  rfl

theorem tbl2 (d : Fin 64) : tbl m 2 (ix1 d) = BitVec.ofNat 32 (perm m d).val := by
  unfold tbl
  show (V m (0 : Dev nD) main_v16 : S64.Idx → BitVec 32) (ix1 d) = _
  rw [V_v16]
  exact sortedPos_apply m d

theorem tbl0 (d : Fin 64) : tbl m 0 (ix1 d) = slRow m (perm m d) := by
  unfold tbl
  show (V m (0 : Dev nD) main_v23 : S64.Idx → BitVec 32) (ix1 d) = _
  rw [V_v23, take_apply _ _ d (perm m d) (wrapCol_apply _ d (perm m d) (sortedPos_apply m d)), rowOf_apply]
  rfl

theorem tbl1 (d : Fin 64) : tbl m 1 (ix1 d) = sfRow m (perm m d) := by
  unfold tbl
  show (V m (0 : Dev nD) main_v30 : S64.Idx → BitVec 32) (ix1 d) = _
  rw [V_v30, take_apply _ _ d (perm m d) (wrapCol_apply _ d (perm m d) (sortedPos_apply m d)), rowOf_apply]
  rfl

/-! ## The launch's condition on the tables -/

/-- Window 0's block index at a grid point, at any contents of the tables: some word of table 0, the grid's first
    coordinate, and 0. -/
theorem transform0_eq (pf : pre0.Contents (Elt F)) (i : grid0.Coords) :
    ∃ x : S64.Idx, cc0_transform_0 k0_off1_inb numel1_S1 pf i
      = ![(pf 0 x : BitVec 32).toNat, (BitVec.ofNat 32 (i 0).val).toNat, (0#32 : BitVec 32).toNat] := ⟨_, rfl⟩

theorem ok_of_inRange
    (h : Cert.Spec.InRange (m (((0 : Dev nD) : Thread nD τ).loc main_arg6)) (m (((0 : Dev nD) : Thread nD τ).loc main_arg7))) :
    Ok m := by
  intro i
  obtain ⟨x, e⟩ := transform0_eq (tbl m) i
  obtain ⟨d, rfl⟩ : ∃ d : Fin 64, x = ix1 d := ⟨x 0, eq_ix1 x⟩
  have hw : (tbl m 0 (ix1 d) : BitVec 32).toNat < 96 := by
    rw [tbl0]
    exact h.1 _
  have h0 : (i 0).val < 2 := (i 0).isLt
  refine ⟨fun a => ?_, Or.inl rfl⟩
  rw [e]
  generalize (tbl m 0 (ix1 d) : BitVec 32).toNat = w at hw
  generalize (i 0).val = g at h0
  fin_cases a
  · show (w + 1) * 1 ≤ 96
    omega
  · show ((BitVec.ofNat 32 g).toNat + 1) * 4096 ≤ 8192
    rw [BitVec.toNat_ofNat]
    omega
  · show (0 + 1) * 64 ≤ 64
    omega

attribute [irreducible] perm

end Cert.KernelIdeal.Tables

end
-- ==== Proof.KernelIdealPieces.lean ====
/-
  What each case of the kernel body leaves behind, as the body's stored values.

  A grid point (half h, step d) reads the three table words at position d. Whatever the case, the accumulator ends at
  the accumulate value of those words, the two input blocks and the accumulator's contents before: zero at step 0 (the
  reset is stored first and read back), what the step before left at the other steps. At step 63 the output block is
  the flush value of that accumulator, the weight block and the bias row.
-/
import proofs.«422501_j76562087018544_2_alg».proof.Proof.KernelIdealFrame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen Cert.KernelIdeal.GenP

variable {F : FTy → Type} [FloatOps F]

theorem zero2 : (![0, 0] : Fin S4096x64.rank → Nat) = fun _ => 0 := by
  funext a; match a with | ⟨0, _⟩ => rfl | ⟨1, _⟩ => rfl
theorem zero3 : (![0, 0, 0] : Fin S1x4096x64.rank → Nat) = fun _ => 0 := by
  funext a; match a with | ⟨0, _⟩ => rfl | ⟨1, _⟩ => rfl | ⟨2, _⟩ => rfl
theorem zero2w : (![0, 0] : Fin S64x64.rank → Nat) = fun _ => 0 := by
  funext a; match a with | ⟨0, _⟩ => rfl | ⟨1, _⟩ => rfl
theorem zero2b : (![0, 0] : Fin S1x64.rank → Nat) = fun _ => 0 := by
  funext a; match a with | ⟨0, _⟩ => rfl | ⟨1, _⟩ => rfl

/-- The word a table holds at the grid point's step (its coordinate 1), as the body loads it. -/
def word (c : Dev nD) (M : Memref sig .tc .smem S64 .i32) (xt : TbBuf0 (F := F) c M) (i : grid0.Coords) : Elt F .i32 :=
  View.readAt (Elt F) M.view (Rect.unit (s := S64) (k0_off1 i) S1.size (Facts₀.k0_off1_inb i)).toLoadRect xt
    (Shape.Idx.first (Nat.lt_of_lt_of_eq Nat.one_pos Facts₀.numel1_S1.symm : 0 < S1.numel))

/-- Step 0: the reset, then the accumulate over the zero just stored. -/
theorem sout_A (c : Dev nD) (i : grid0.Coords) (arg5 : Memref sig .tc .vmem S1x4096x64 .f32) (harg5 : arg5.IsWhole) (arg6 : Memref sig .tc .vmem S4096x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S4096x64 .f32) (harg9 : arg9.IsWhole) (arg10 : Memref sig .tc .vmem S4096x64 .f32) (harg10 : arg10.IsWhole) (hc0 : cond0_0 i) (hc1 : ¬cond0_1 i)
    (x0 : Vec F S1x4096x64 .f32) (x1 : Vec F S4096x64 .f32) (x2 : Vec F S64x64 .f32) (x3 : Vec F S1x64 .f32) (xt0 : TbBuf0 (F := F) c tbM0_0) (xt1 : TbBuf0 (F := F) c tbM0_1) (xt2 : TbBuf0 (F := F) c tbM0_2) :
    sout0_A_0 c i arg5 harg5 arg6 harg6 arg7 harg7 arg8 harg8 arg9 harg9 arg10 harg10 hc0 hc1 x0 x1 x2 x3 xt0 xt1 xt2
      = k0_pay2 (word c tbM0_0 xt0 i) (word c tbM0_1 xt1 i) (word c tbM0_2 xt2 i) x0 x1 k0_pay1 := by
  unfold sout0_A_0
  rw [View.read_writes_eq_canon _ _ _ (scover0_A_0 c i arg5 harg5 arg6 harg6 arg7 harg7 arg8 harg8 arg9 harg9 arg10 harg10 hc0 hc1 x0 x1 x2 x3 xt0 xt1 xt2)]
  unfold kernelRun0_A
  dsimp only
  sl_unfold_words
  rw [View.canon_cons_unit_zero (S := S4096x64) zero2]
  simp only [View.readAt_eq_ld, harg5.read_unread, harg6.read_unread, View.ld_unit_zero (S := S1x4096x64) zero3,
    View.ld_unit_zero (S := S4096x64) zero2, View.readCov_unit_zero (S := S4096x64) _ zero2, word]
  all_goals rfl

/-- A middle step: the accumulate over what the step before left. -/
theorem sout_B (c : Dev nD) (i : grid0.Coords) (arg5 : Memref sig .tc .vmem S1x4096x64 .f32) (harg5 : arg5.IsWhole) (arg6 : Memref sig .tc .vmem S4096x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S4096x64 .f32) (harg9 : arg9.IsWhole) (arg10 : Memref sig .tc .vmem S4096x64 .f32) (harg10 : arg10.IsWhole) (hc0 : ¬cond0_0 i) (hc1 : ¬cond0_1 i)
    (x0 : Vec F S1x4096x64 .f32) (x1 : Vec F S4096x64 .f32) (x2 : Vec F S64x64 .f32) (x3 : Vec F S1x64 .f32) (xt0 : TbBuf0 (F := F) c tbM0_0) (xt1 : TbBuf0 (F := F) c tbM0_1) (xt2 : TbBuf0 (F := F) c tbM0_2) (xs0 : Vec F S4096x64 .f32) :
    sout0_B_0 c i arg5 harg5 arg6 harg6 arg7 harg7 arg8 harg8 arg9 harg9 arg10 harg10 hc0 hc1 x0 x1 x2 x3 xt0 xt1 xt2 xs0
      = k0_pay2 (word c tbM0_0 xt0 i) (word c tbM0_1 xt1 i) (word c tbM0_2 xt2 i) x0 x1 xs0 := by
  unfold sout0_B_0
  rw [View.read_writes_eq_canon _ _ _ (scover0_B_0 c i arg5 harg5 arg6 harg6 arg7 harg7 arg8 harg8 arg9 harg9 arg10 harg10 hc0 hc1 x0 x1 x2 x3 xt0 xt1 xt2 xs0)]
  unfold kernelRun0_B
  dsimp only
  sl_unfold_words
  rw [View.canon_unit_zero (S := S4096x64) zero2]
  simp only [View.readAt_eq_ld, harg5.read_unread, harg6.read_unread, harg10.read_unread, View.ld_unit_zero (S := S1x4096x64) zero3,
    View.ld_unit_zero (S := S4096x64) zero2, word]
  all_goals rfl

/-- Step 63, the accumulator: the accumulate over what the step before left. -/
theorem sout_C (c : Dev nD) (i : grid0.Coords) (arg5 : Memref sig .tc .vmem S1x4096x64 .f32) (harg5 : arg5.IsWhole) (arg6 : Memref sig .tc .vmem S4096x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S4096x64 .f32) (harg9 : arg9.IsWhole) (arg10 : Memref sig .tc .vmem S4096x64 .f32) (harg10 : arg10.IsWhole) (hc0 : ¬cond0_0 i) (hc1 : cond0_1 i)
    (x0 : Vec F S1x4096x64 .f32) (x1 : Vec F S4096x64 .f32) (x2 : Vec F S64x64 .f32) (x3 : Vec F S1x64 .f32) (xt0 : TbBuf0 (F := F) c tbM0_0) (xt1 : TbBuf0 (F := F) c tbM0_1) (xt2 : TbBuf0 (F := F) c tbM0_2) (xs0 : Vec F S4096x64 .f32) :
    sout0_C_0 c i arg5 harg5 arg6 harg6 arg7 harg7 arg8 harg8 arg9 harg9 arg10 harg10 hc0 hc1 x0 x1 x2 x3 xt0 xt1 xt2 xs0
      = k0_pay2 (word c tbM0_0 xt0 i) (word c tbM0_1 xt1 i) (word c tbM0_2 xt2 i) x0 x1 xs0 := by
  unfold sout0_C_0
  rw [View.read_writes_eq_canon _ _ _ (scover0_C_0 c i arg5 harg5 arg6 harg6 arg7 harg7 arg8 harg8 arg9 harg9 arg10 harg10 hc0 hc1 x0 x1 x2 x3 xt0 xt1 xt2 xs0)]
  unfold kernelRun0_C
  dsimp only
  sl_unfold_words
  rw [View.canon_unit_zero (S := S4096x64) zero2]
  simp only [View.readAt_eq_ld, harg5.read_unread, harg6.read_unread, harg10.read_unread, View.ld_unit_zero (S := S1x4096x64) zero3,
    View.ld_unit_zero (S := S4096x64) zero2, word]
  all_goals rfl

/-- Step 63, the output block: the flush of the accumulator just stored. -/
theorem out_C (c : Dev nD) (i : grid0.Coords) (arg5 : Memref sig .tc .vmem S1x4096x64 .f32) (harg5 : arg5.IsWhole) (arg6 : Memref sig .tc .vmem S4096x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S4096x64 .f32) (harg9 : arg9.IsWhole) (arg10 : Memref sig .tc .vmem S4096x64 .f32) (harg10 : arg10.IsWhole) (hc0 : ¬cond0_0 i) (hc1 : cond0_1 i)
    (x0 : Vec F S1x4096x64 .f32) (x1 : Vec F S4096x64 .f32) (x2 : Vec F S64x64 .f32) (x3 : Vec F S1x64 .f32) (xt0 : TbBuf0 (F := F) c tbM0_0) (xt1 : TbBuf0 (F := F) c tbM0_1) (xt2 : TbBuf0 (F := F) c tbM0_2) (xs0 : Vec F S4096x64 .f32) :
    out0_C_4 c i arg5 harg5 arg6 harg6 arg7 harg7 arg8 harg8 arg9 harg9 arg10 harg10 hc0 hc1 x0 x1 x2 x3 xt0 xt1 xt2 xs0
      = k0_pay3 (k0_pay2 (word c tbM0_0 xt0 i) (word c tbM0_1 xt1 i) (word c tbM0_2 xt2 i) x0 x1 xs0) x2 x3 := by
  unfold out0_C_4
  rw [View.read_writes_eq_canon _ _ _ (cover0_C_4 c i arg5 harg5 arg6 harg6 arg7 harg7 arg8 harg8 arg9 harg9 arg10 harg10 hc0 hc1 x0 x1 x2 x3 xt0 xt1 xt2 xs0)]
  unfold kernelRun0_C
  dsimp only
  sl_unfold_words
  rw [View.canon_unit_zero (S := S4096x64) zero2]
  simp only [View.readAt_eq_ld, harg5.read_unread, harg6.read_unread, harg7.read_unread, harg8.read_unread, harg10.read_unread,
    View.ld_unit_zero (S := S1x4096x64) zero3, View.ld_unit_zero (S := S4096x64) zero2, View.ld_unit_zero (S := S64x64) zero2w,
    View.ld_unit_zero (S := S1x64) zero2b, View.readCov_unit_zero (S := S4096x64) _ zero2, word]
  all_goals rfl

end Cert.KernelIdeal.Pieces

end
-- ==== Proof.KernelIdealPayload.lean ====
/-
  The three values the kernel body stores, read at an entry on the extended reals.

  At a grid point with layer word `v4`, feature word `v6` and destination word `v8` the body

  * resets the accumulator to zero (only at the first of a batch half's 64 points),
  * adds to the accumulator the product of the source block with a 64 × 64 matrix whose entry (k, c) is 1 when
    k is the feature word and c the destination word, and 0 elsewhere — the source block being the input trace's
    block when the layer word is 0 and the hidden state's block otherwise —: entry (r, c) gains
    ∑_k source[r,k] · onehot[k,c],
  * and (only at the last of the 64 points) stores max(∑_k acc[r,k] · W[o,k] + bias[o], 0).

  A change of float format is the identity on the extended reals, the integer 0 or 1 converts to the real 0 or 1, and a
  product into a zero accumulator is the plain sum over the contracted axis.
-/
import proofs.«422501_j76562087018544_2_alg».proof.KernelIdeal
import proofs.«422501_j76562087018544_2_alg».proof.Proof.Gen.KernelIdeal
import proofs.«422501_j76562087018544_2_alg».proof.Proof.Gen.KernelIdeal.Skeleton
import Idealize.ShloMosaic.Lib.Pipeline.Value
import Idealize.ShloMosaic.Lib.ValueIdx
import Idealize.ShloMosaic.PureOps.Ideal.Laws
import Idealize.ShloMosaic.Lib.StableHlo.Predicate

noncomputable section

namespace Cert.KernelIdeal.Payload

open Idealize.ShloMosaic Idealize.ShloMosaic.ValueIdx Cert.KernelIdeal Cert.KernelIdeal.Gen
open scoped BigOperators

/-! ## The two products, as sums over the contracted axis -/

theorem lhsA_0 (i : S4096x64.Idx) (q : dot_S4096x64_S64x64_S4096x64_1_0_0_1_n_n.contr.Idx) : (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhsA_1 (i : S4096x64.Idx) (q : dot_S4096x64_S64x64_S4096x64_1_0_0_1_n_n.contr.Idx) : (dot_S4096x64_S64x64_S4096x64_1_0_0_1_n_n.lhsIdx i q 1).val = (q ⟨0, by decide⟩).val :=
  dot_S4096x64_S64x64_S4096x64_1_0_0_1_n_n.lhsIdx_val_of_single rfl i q
theorem rhsA_0 (i : S4096x64.Idx) (q : dot_S4096x64_S64x64_S4096x64_1_0_0_1_n_n.contr.Idx) : (dot_S4096x64_S64x64_S4096x64_1_0_0_1_n_n.rhsIdx i q 0).val = (q ⟨0, by decide⟩).val :=
  dot_S4096x64_S64x64_S4096x64_1_0_0_1_n_n.rhsIdx_val_of_single rfl i q
theorem rhsA_1 (i : S4096x64.Idx) (q : dot_S4096x64_S64x64_S4096x64_1_0_0_1_n_n.contr.Idx) : (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- Rows times columns: the left operand's row r against the right operand's column c. -/
theorem matmulA_apply (lhs : FVec Ideal S4096x64 .bf16) (rhs : FVec Ideal S64x64 .bf16) (r : Fin 4096) (c : Fin 64) :
    matmul dot_S4096x64_S64x64_S4096x64_1_0_0_1_n_n none lhs rhs (constant S4096x64 .f32 0x00000000#32) (ix2 r c) = ∑ k : Fin 64, lhs (ix2 r k) * rhs (ix2 k c) := by
  simp only [matmul]
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r c) ((contrEquiv1 dot_S4096x64_S64x64_S4096x64_1_0_0_1_n_n 64 rfl rfl).symm k) = ix2 r k := funext fun a => Fin.ext (by
    match a with
    | ⟨0, _⟩ => exact lhsA_0 _ _
    | ⟨1, _⟩ => exact (lhsA_1 _ _).trans hk)
  have er : dot_S4096x64_S64x64_S4096x64_1_0_0_1_n_n.rhsIdx (ix2 r c) ((contrEquiv1 dot_S4096x64_S64x64_S4096x64_1_0_0_1_n_n 64 rfl rfl).symm k) = ix2 k c := funext fun a => Fin.ext (by
    match a with
    | ⟨0, _⟩ => exact (rhsA_0 _ _).trans hk
    | ⟨1, _⟩ => exact rhsA_1 _ _)
  rw [el, er]

theorem lhsB_0 (i : S4096x64.Idx) (q : dot_S4096x64_S64x64_S4096x64_1_1_0_0_n_n.contr.Idx) : (dot_S4096x64_S64x64_S4096x64_1_1_0_0_n_n.lhsIdx i q 0).val = (i 0).val := by
  unfold DotDims.lhsIdx
  rw [dif_neg (show ¬(0 : Fin S4096x64.rank) ∈ dot_S4096x64_S64x64_S4096x64_1_1_0_0_n_n.lhsBatch by decide), dif_pos (show (0 : Fin S4096x64.rank) ∈ dot_S4096x64_S64x64_S4096x64_1_1_0_0_n_n.lhsNonContracting by decide)]
  rfl
theorem lhsB_1 (i : S4096x64.Idx) (q : dot_S4096x64_S64x64_S4096x64_1_1_0_0_n_n.contr.Idx) : (dot_S4096x64_S64x64_S4096x64_1_1_0_0_n_n.lhsIdx i q 1).val = (q ⟨0, by decide⟩).val :=
  dot_S4096x64_S64x64_S4096x64_1_1_0_0_n_n.lhsIdx_val_of_single rfl i q
theorem rhsB_0 (i : S4096x64.Idx) (q : dot_S4096x64_S64x64_S4096x64_1_1_0_0_n_n.contr.Idx) : (dot_S4096x64_S64x64_S4096x64_1_1_0_0_n_n.rhsIdx i q 0).val = (i 1).val := by
  unfold DotDims.rhsIdx
  rw [dif_neg (show ¬(0 : Fin S64x64.rank) ∈ dot_S4096x64_S64x64_S4096x64_1_1_0_0_n_n.rhsBatch by decide), dif_pos (show (0 : Fin S64x64.rank) ∈ dot_S4096x64_S64x64_S4096x64_1_1_0_0_n_n.rhsNonContracting by decide)]
  rfl
theorem rhsB_1 (i : S4096x64.Idx) (q : dot_S4096x64_S64x64_S4096x64_1_1_0_0_n_n.contr.Idx) : (dot_S4096x64_S64x64_S4096x64_1_1_0_0_n_n.rhsIdx i q 1).val = (q ⟨0, by decide⟩).val :=
  dot_S4096x64_S64x64_S4096x64_1_1_0_0_n_n.rhsIdx_val_of_single rfl i q

/-- Rows times rows: the left operand's row r against the right operand's row o (a product with the transpose). -/
theorem matmulB_apply (lhs : FVec Ideal S4096x64 .bf16) (rhs : FVec Ideal S64x64 .bf16) (r : Fin 4096) (o : Fin 64) :
    matmul dot_S4096x64_S64x64_S4096x64_1_1_0_0_n_n none lhs rhs (constant S4096x64 .f32 0x00000000#32) (ix2 r o) = ∑ k : Fin 64, lhs (ix2 r k) * rhs (ix2 o k) := by
  simp only [matmul]
  rw [Ideal.matmul_constant_zero_apply, ← Equiv.sum_comp (contrEquiv1 dot_S4096x64_S64x64_S4096x64_1_1_0_0_n_n 64 rfl rfl).symm]
  refine Finset.sum_congr rfl fun k _ => ?_
  have hk := contrEquiv1_symm_val dot_S4096x64_S64x64_S4096x64_1_1_0_0_n_n 64 rfl rfl k
  have el : dot_S4096x64_S64x64_S4096x64_1_1_0_0_n_n.lhsIdx (ix2 r o) ((contrEquiv1 dot_S4096x64_S64x64_S4096x64_1_1_0_0_n_n 64 rfl rfl).symm k) = ix2 r k := funext fun a => Fin.ext (by
    match a with
    | ⟨0, _⟩ => exact lhsB_0 _ _
    | ⟨1, _⟩ => exact (lhsB_1 _ _).trans hk)
  have er : dot_S4096x64_S64x64_S4096x64_1_1_0_0_n_n.rhsIdx (ix2 r o) ((contrEquiv1 dot_S4096x64_S64x64_S4096x64_1_1_0_0_n_n 64 rfl rfl).symm k) = ix2 o k := funext fun a => Fin.ext (by
    match a with
    | ⟨0, _⟩ => exact rhsB_0 _ _
    | ⟨1, _⟩ => exact (rhsB_1 _ _).trans hk)
  rw [el, er]

/-! ## The one-hot matrix -/

/-- Two bits' conjunction, widened and read as a signed integer, is 1 when both are set and 0 otherwise. -/
theorem andBits_toInt : ∀ a b : BitVec 1, ((IntOp.andi a b).setWidth 32).toInt = if a = 1#1 ∧ b = 1#1 then 1 else 0 := by decide

/-- A word comparison for equality is the bit 1 exactly when the words are equal. -/
theorem cmpi_eq_bit (a b : BitVec 32) : IntOp.cmpi .eq a b = if a = b then 1#1 else 0#1 := by
  by_cases h : a = b
  · rw [if_pos h]; exact StableHlo.Predicate.cmpi_eq_iff.mpr h
  · rw [if_neg h]; exact eq_zero_of_ne_one fun e => h (StableHlo.Predicate.cmpi_eq_iff.mp e)

/-- The matrix with a single 1, at row `v6` and column `v8` (read as words), as the body builds it. -/
def oneHot (v6 v8 : BitVec 32) : FVec Ideal S64x64 .bf16 :=
  truncf .bf16 (sitofp .f32 (extui 32 (andi (cmpi .eq (iota .tc S64x64 32 [0] iota_S64x64_d0_w32) (broadcast S64x64 v6))
    (cmpi .eq (iota .tc S64x64 32 [1] iota_S64x64_d1_w32) (broadcast S64x64 v8))) natLt_1_32)) bitsLt_bf16_f32

theorem oneHot_apply (v6 v8 : BitVec 32) (k c : Fin 64) :
    oneHot v6 v8 (ix2 k c) = if BitVec.ofNat 32 k.val = v6 ∧ BitVec.ofNat 32 c.val = v8 then 1 else 0 := by
  show ((((IntOp.andi (IntOp.cmpi .eq (iota .tc S64x64 32 [0] iota_S64x64_d0_w32 (ix2 k c)) v6)
    (IntOp.cmpi .eq (iota .tc S64x64 32 [1] iota_S64x64_d1_w32 (ix2 k c)) v8)).setWidth 32).toInt : ℝ) : EReal) = _
  rw [iota_single_apply, iota_single_apply, andBits_toInt, cmpi_eq_bit, cmpi_eq_bit]
  show (((if (if BitVec.ofNat 32 k.val = v6 then 1#1 else 0#1) = 1#1 ∧ (if BitVec.ofNat 32 c.val = v8 then 1#1 else 0#1) = 1#1 then (1 : ℤ) else 0 : ℤ) : ℝ) : EReal) = _
  by_cases h1 : BitVec.ofNat 32 k.val = v6 <;> by_cases h2 : BitVec.ofNat 32 c.val = v8 <;> simp [h1, h2]

/-! ## The three stored values -/

/-- The reset stores zero everywhere. -/
theorem pay1_apply (j : S4096x64.Idx) : k0_pay1 (F := Ideal) j = 0 := by
  unfold k0_pay1
  rw [shapeCast_self]
  exact Ideal.ofBits_zero_f32

/-- The source block at (r, k): the trace's block where the layer word is 0, the hidden state's block elsewhere. -/
def source (v4 : BitVec 32) (v9 : Vec Ideal S1x4096x64 .f32) (v11 : Vec Ideal S4096x64 .f32) (r : Fin 4096) (k : Fin 64) : EReal :=
  if v4 = 0#32 then v11 (ix2 r k) else v9 (ix3 0 r k)

/-- The accumulate: the loaded accumulator plus the source block times the one-hot matrix. -/
theorem pay2_apply (v4 v6 v8 : BitVec 32) (v9 : Vec Ideal S1x4096x64 .f32) (v11 v25 : Vec Ideal S4096x64 .f32) (r : Fin 4096) (c : Fin 64) :
    k0_pay2 (F := Ideal) v4 v6 v8 v9 v11 v25 (ix2 r c)
      = v25 (ix2 r c) + ∑ k : Fin 64, source v4 v9 v11 r k * (if BitVec.ofNat 32 k.val = v6 ∧ BitVec.ofNat 32 c.val = v8 then 1 else 0) := by
  unfold k0_pay2
  simp only [shapeCast_self]
  rw [addf_apply, matmulA_apply]
  refine congrArg (v25 (ix2 r c) + ·) (Finset.sum_congr rfl fun k _ => ?_)
  refine congrArg₂ (· * ·) ?_ (oneHot_apply v6 v8 k c)
  rw [truncf_apply]
  unfold source
  by_cases h : v4 = 0#32
  · rw [if_pos h]
    have e : Scalar.cmpi .eq v4 0#32 = 1#1 := StableHlo.Predicate.cmpi_eq_iff.mpr h
    rw [e, select_one]
  · rw [if_neg h]
    have e : Scalar.cmpi .eq v4 0#32 = 0#1 := eq_zero_of_ne_one fun e => h (StableHlo.Predicate.cmpi_eq_iff.mp e)
    rw [e, select_zero]
    exact shapeCast_apply v9 shapeCasts_S1x4096x64_S4096x64 (ix2 r k) (ix3 0 r k)
      (by rewrite [Shape.rowMajor_val_three, Shape.rowMajor_val_two]; show (0 * 4096 + r.val) * 64 + k.val = r.val * 64 + k.val; omega)

/-- The flush: the accumulator times the transposed weights, plus the bias row, the positive part. -/
theorem pay3_apply (v35 : Vec Ideal S4096x64 .f32) (v37 : Vec Ideal S64x64 .f32) (v41 : Vec Ideal S1x64 .f32) (r : Fin 4096) (o : Fin 64) :
    k0_pay3 (F := Ideal) v35 v37 v41 (ix2 r o) = max ((∑ k : Fin 64, v35 (ix2 r k) * v37 (ix2 o k)) + v41 (ix2 0 o)) 0 := by
  unfold k0_pay3
  simp only [shapeCast_self]
  rw [maximumf_apply, addf_apply, matmulB_apply]
  refine congrArg₂ max (congrArg₂ (· + ·) rfl ?_) Ideal.ofBits_zero_f32
  exact broadcastTo_apply v41 broadcasts_S1x64_S4096x64 (ix2 r o) (ix2 0 o) (fun a => by
    match a with
    | ⟨0, _⟩ => rfl
    | ⟨1, _⟩ => rfl)

end Cert.KernelIdeal.Payload

end
-- ==== Proof.KernelIdealAccum.lean ====
/-
  The accumulator over a batch half's 64 steps, on the extended reals.

  One step at grid point t adds to entry (r, c) of the accumulator the amount

      inc t r c = ∑_k source_t[r,k] · [k is t's feature word and c is t's destination word],

  source_t being the point's trace block where its layer word is 0 and its hidden-state block elsewhere. The first step
  of a half starts from zero, every later step from what the step before left; so after step d of half h the accumulator
  holds the sum of inc over the steps 0 … d of that half, and at step 63 the output block is the flush of that sum.
-/
import proofs.«422501_j76562087018544_2_alg».proof.Proof.KernelIdealPieces
import proofs.«422501_j76562087018544_2_alg».proof.Proof.KernelIdealPayload

set_option maxRecDepth 16384

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.GenP Cert.KernelIdeal.Pieces Cert.KernelIdeal.Payload
open scoped BigOperators

variable (m : (ℓ : Loc nD τ sig) → Buf (Elt Ideal) ℓ) (hO : Ok m)

/-- The point's four input blocks, at their literal types. -/
abbrev hblk (c : Dev nD) (t : Fin (cfgM m hO).N) : Vec Ideal S1x4096x64 .f32 := iblk m hO c 0 t
abbrev tblk (c : Dev nD) (t : Fin (cfgM m hO).N) : Vec Ideal S4096x64 .f32 := iblk m hO c 1 t
abbrev wblk (c : Dev nD) (t : Fin (cfgM m hO).N) : Vec Ideal S64x64 .f32 := iblk m hO c 2 t
abbrev bblk (c : Dev nD) (t : Fin (cfgM m hO).N) : Vec Ideal S1x64 .f32 := iblk m hO c 3 t

/-- The point's three table words. -/
abbrev W0 (c : Dev nD) (t : Fin (cfgM m hO).N) : BitVec 32 := word (F := Ideal) c tbM0_0 (tbl m 0) (grid0.coords t)
abbrev W1 (c : Dev nD) (t : Fin (cfgM m hO).N) : BitVec 32 := word (F := Ideal) c tbM0_1 (tbl m 1) (grid0.coords t)
abbrev W2 (c : Dev nD) (t : Fin (cfgM m hO).N) : BitVec 32 := word (F := Ideal) c tbM0_2 (tbl m 2) (grid0.coords t)

/-- What the step at point t adds to entry (r, c) of the accumulator. -/
def inc (c : Dev nD) (t : Fin (cfgM m hO).N) (r : Fin 4096) (cc : Fin 64) : EReal :=
  ∑ k : Fin 64, source (W0 m hO c t) (hblk m hO c t) (tblk m hO c t) r k
    * (if BitVec.ofNat 32 k.val = W1 m hO c t ∧ BitVec.ofNat 32 cc.val = W2 m hO c t then 1 else 0)

/-- The accumulator after point n. -/
abbrev acc (c : Dev nD) (n : ℕ) (hn : n < (cfgM m hO).N) : Vec Ideal S4096x64 .f32 := (outsAt0 m hO c n hn).2

theorem N_eq : (cfgM m hO).N = 128 := N_0

/-- The first step of a half: zero plus the step's amount. -/
theorem acc_first (c : Dev nD) (t : Fin (cfgM m hO).N) (h0 : t.val % 64 = 0) (r : Fin 4096) (cc : Fin 64) :
    acc m hO c t.val t.isLt (ix2 r cc) = inc m hO c t r cc := by
  have h1 : ¬t.val % 64 = 63 := by omega
  show (outsAt0 m hO c t.val t.isLt).2 (ix2 r cc) = _
  rw [outsAt0_A m hO c t h0 h1]
  dsimp only
  refine (congrFun (sout_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h1 ((hcond0_1 t).mp h)) (iblk m hO c 0 t) (iblk m hO c 1 t) (iblk m hO c 2 t) (iblk m hO c 3 t) (tbl m 0) (tbl m 1) (tbl m 2)) (ix2 r cc)).trans ?_
  refine (pay2_apply (W0 m hO c t) (W1 m hO c t) (W2 m hO c t) (hblk m hO c t) (tblk m hO c t) (k0_pay1 (F := Ideal)) r cc).trans ?_
  rw [pay1_apply, zero_add]
  rfl

/-- A later step: what the step before left plus the step's amount. -/
theorem acc_next (c : Dev nD) (t : Fin (cfgM m hO).N) (h0 : ¬t.val % 64 = 0) (r : Fin 4096) (cc : Fin 64) :
    acc m hO c t.val t.isLt (ix2 r cc)
      = acc m hO c (t.val - 1) (Nat.lt_of_le_of_lt (Nat.sub_le _ _) t.isLt) (ix2 r cc) + inc m hO c t r cc := by
  show (outsAt0 m hO c t.val t.isLt).2 (ix2 r cc) = _
  by_cases h1 : t.val % 64 = 63
  · rw [outsAt0_C m hO c t h0 h1]
    dsimp only
    refine (congrFun (sout_C (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_1 t).mpr h1) (iblk m hO c 0 t) (iblk m hO c 1 t) (iblk m hO c 2 t) (iblk m hO c 3 t) (tbl m 0) (tbl m 1) (tbl m 2)
      (outsAt0 m hO c (t.val - 1) (Nat.lt_of_le_of_lt (Nat.sub_le _ _) t.isLt)).2) (ix2 r cc)).trans ?_
    exact pay2_apply (W0 m hO c t) (W1 m hO c t) (W2 m hO c t) (hblk m hO c t) (tblk m hO c t) _ r cc
  · rw [outsAt0_B m hO c t h0 h1]
    dsimp only
    refine (congrFun (sout_B (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h1 ((hcond0_1 t).mp h)) (iblk m hO c 0 t) (iblk m hO c 1 t) (iblk m hO c 2 t) (iblk m hO c 3 t) (tbl m 0) (tbl m 1) (tbl m 2)
      (outsAt0 m hO c (t.val - 1) (Nat.lt_of_le_of_lt (Nat.sub_le _ _) t.isLt)).2) (ix2 r cc)).trans ?_
    exact pay2_apply (W0 m hO c t) (W1 m hO c t) (W2 m hO c t) (hblk m hO c t) (tblk m hO c t) _ r cc

/-- The step's amount at a point given by its number (zero past the grid: never read). -/
def incN (c : Dev nD) (n : ℕ) (r : Fin 4096) (cc : Fin 64) : EReal :=
  if h : n < (cfgM m hO).N then inc m hO c ⟨n, h⟩ r cc else 0

/-- After point n the accumulator holds the sum of the amounts of the steps 0 … n mod 64 of n's half. -/
theorem acc_sum (c : Dev nD) (r : Fin 4096) (cc : Fin 64) : ∀ (n : ℕ) (hn : n < (cfgM m hO).N),
    acc m hO c n hn (ix2 r cc) = ∑ d ∈ Finset.range (n % 64 + 1), incN m hO c (64 * (n / 64) + d) r cc
  | 0, hn => by
    rw [acc_first m hO c ⟨0, hn⟩ rfl r cc]
    simp [incN, hn]
  | n + 1, hn => by
    by_cases h0 : (n + 1) % 64 = 0
    · rw [acc_first m hO c ⟨n + 1, hn⟩ h0 r cc, h0]
      have e : 64 * ((n + 1) / 64) + 0 = n + 1 := by omega
      simp [incN, e, hn]
    · have hn' : n < (cfgM m hO).N := Nat.lt_of_succ_lt hn
      have e1 : (n + 1) % 64 = n % 64 + 1 := by omega
      have e2 : (n + 1) / 64 = n / 64 := by omega
      have e3 : 64 * (n / 64) + (n % 64 + 1) = n + 1 := by omega
      rw [acc_next m hO c ⟨n + 1, hn⟩ h0 r cc, e1, e2, Finset.sum_range_succ _ (n % 64 + 1)]
      show acc m hO c n _ (ix2 r cc) + _ = _
      rw [acc_sum c r cc n hn', e3]
      simp [incN, hn]

/-- At the last step of a half the output block is the flush of the accumulator. -/
theorem out_last (c : Dev nD) (t : Fin (cfgM m hO).N) (h1 : t.val % 64 = 63) (r : Fin 4096) (o : Fin 64) :
    (outsAt0 m hO c t.val t.isLt).1 (ix2 r o)
      = max ((∑ k : Fin 64, acc m hO c t.val t.isLt (ix2 r k) * wblk m hO c t (ix2 o k)) + bblk m hO c t (ix2 0 o)) 0 := by
  have h0 : ¬t.val % 64 = 0 := by omega
  have e2 : acc m hO c t.val t.isLt = k0_pay2 (W0 m hO c t) (W1 m hO c t) (W2 m hO c t) (hblk m hO c t) (tblk m hO c t)
      (outsAt0 m hO c (t.val - 1) (Nat.lt_of_le_of_lt (Nat.sub_le _ _) t.isLt)).2 := by
    show (outsAt0 m hO c t.val t.isLt).2 = _
    rw [outsAt0_C m hO c t h0 h1]
    dsimp only
    exact sout_C (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_1 t).mpr h1) (iblk m hO c 0 t) (iblk m hO c 1 t) (iblk m hO c 2 t) (iblk m hO c 3 t) (tbl m 0) (tbl m 1) (tbl m 2) _
  rw [e2, outsAt0_C m hO c t h0 h1]
  dsimp only
  refine (congrFun (out_C (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_1 t).mpr h1) (iblk m hO c 0 t) (iblk m hO c 1 t) (iblk m hO c 2 t) (iblk m hO c 3 t) (tbl m 0) (tbl m 1) (tbl m 2)
    (outsAt0 m hO c (t.val - 1) (Nat.lt_of_le_of_lt (Nat.sub_le _ _) t.isLt)).2) (ix2 r o)).trans ?_
  exact pay3_apply _ (wblk m hO c t) (bblk m hO c t) r o

end Cert.KernelIdeal.Accum

end
-- ==== Proof.KernelIdealBlocks.lean ====
/-
  The input blocks and table words of a grid point, read back to the argument arrays, on the extended reals.

  Grid point t is step t mod 64 of batch half t div 64. Its table words are the three tables at position t mod 64. Its
  hidden-state block is rows [4096·(t div 64), 4096·(t div 64) + 4096) of layer (table 0's word) of h; its trace block
  the same rows of the input layer's trace max(x·w_in + b_in, 0), which the host computes before the launch; its weight
  block is W[95] and its bias block the row Bi[95], which the host slices out before the launch.
-/
import proofs.«422501_j76562087018544_2_alg».proof.Proof.KernelIdealPieces
import proofs.«422501_j76562087018544_2_alg».proof.Proof.KernelIdealTables
import Idealize.ShloMosaic.PureOps.Ideal.Laws

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.GenP Cert.KernelIdeal.Pieces
section Readings
open Idealize.ShloMosaic.StableHlo Idealize.ShloMosaic.StableHlo.Predicate

/-! ## The grid, the tables' unit rectangle, and broadcasts read at an index -/

/-- A grid point's coordinates: the step and the batch half. -/
theorem coords_eq : ∀ t : Fin grid0.N, ((grid0.coords t) 1).val = t.val % 64 ∧ ((grid0.coords t) 0).val = t.val / 64 :=
  (by decide +kernel : ∀ t : Fin grid0.N, ((grid0.coords t) 1).val = t.val % 64 ∧ ((grid0.coords t) 0).val = t.val / 64)

/-- The block index of the windows whose index map reads no table: window 1's is (batch half, 0). -/
theorem index1_eq : ∀ t : Fin grid0.N, cc0_transform_1 (grid0.coords t) 0 = t.val / 64 ∧ cc0_transform_1 (grid0.coords t) 1 = 0 :=
  (by decide +kernel : ∀ t : Fin grid0.N, cc0_transform_1 (grid0.coords t) 0 = t.val / 64 ∧ cc0_transform_1 (grid0.coords t) 1 = 0)

/-- The one index of the unit rectangle a table is read through at grid coordinates i: position (i 1) of the table. -/
theorem unit_idx (i : grid0.Coords) (h1 : 0 < S1.numel) (d : Fin 64) (hd : (i 1).val = d.val) :
    (Rect.unit (s := S64) (k0_off1 i) S1.size (Facts₀.k0_off1_inb i)).emb (Shape.Idx.first h1) = ix1 d := by
  funext a
  apply Fin.ext
  match a with
  | ⟨0, _⟩ =>
    show (BitVec.ofNat 32 (i 1).val).toNat + 1 * (Shape.Idx.first h1 (0 : Fin 1)).val = d.val
    have h0 : (Shape.Idx.first h1 (0 : Fin 1)).val = 0 := by
      have := (Shape.Idx.first h1 (0 : Fin 1)).isLt
      have e : S1.size (0 : Fin 1) = 1 := by decide
      omega
    have := d.isLt
    rw [h0, BitVec.toNat_ofNat, hd]
    omega

/-- A vector laid along the columns of a rectangle reads, at (p, q), the vector at q. -/
theorem bcast_cols_ix2 {α : Type} {n k : Nat} (h₁ : (⟨1, ![k]⟩ : Shape).BroadcastsInDim ⟨2, ![1, k]⟩ ![1])
    (h₂ : (⟨2, ![1, k]⟩ : Shape).BroadcastsInDim ⟨2, ![n, k]⟩ ![0, 1]) (v : (⟨1, ![k]⟩ : Shape).Idx → α) (p : Fin n) (q : Fin k) :
    broadcastInDim ⟨2, ![n, k]⟩ ![0, 1] h₂ (broadcastInDim ⟨2, ![1, k]⟩ ![1] h₁ v) (ix2 p q) = v (ix1 q) :=
  (bcast_cols h₁ h₂ v p q).trans (congrArg v (Cert.KernelIdeal.Tables.ofFin_eq_ix1 q))

/-- A vector as a one-row rectangle reads, at (0, q), the vector at q. -/
theorem bcast_row1_ix2 {α : Type} {k : Nat} (h₁ : (⟨1, ![k]⟩ : Shape).BroadcastsInDim ⟨2, ![1, k]⟩ ![1])
    (v : (⟨1, ![k]⟩ : Shape).Idx → α) (q : Fin k) :
    broadcastInDim ⟨2, ![1, k]⟩ ![1] h₁ v (ix2 (0 : Fin 1) q) = v (ix1 q) := by
  have e : ix2 (0 : Fin 1) q = i1q q := by
    funext b; match b with | ⟨0, _⟩ => rfl | ⟨1, _⟩ => rfl
  rw [e, bcast_row1, Cert.KernelIdeal.Tables.ofFin_eq_ix1]

variable (m : (ℓ : Loc nD τ sig) → Buf (Elt Ideal) ℓ)

/-! ## The arrays the host writes before the launch, read at an index -/

set_option maxHeartbeats 1000000 in
/-- The trace array: max(x·w_in + b_in, 0), row by row. -/
theorem V_v6_apply (c : Dev nD) (R : Fin 8192) (k : Fin 64) :
    (V m c main_v6 : S8192x64.Idx → EReal) (ix2 R k)
      = Cert.Spec.trace (m ((c : Thread nD τ).loc main_arg0)) (m ((c : Thread nD τ).loc main_arg1)) (m ((c : Thread nD τ).loc main_arg2)) R k := by
  have e : (V m c main_v6 : S8192x64.Idx → EReal)
      = maximumf (F := Ideal) (φ := .f32)
          (addf (mulf (m ((c : Thread nD τ).loc main_arg0))
              (broadcastInDim S8192x64 ![0, 1] bcast_S1x64_S8192x64_0_1 (broadcastInDim S1x64 ![1] bcast_S64_S1x64_1 (m ((c : Thread nD τ).loc main_arg1)))))
            (broadcastInDim S8192x64 ![0, 1] bcast_S1x64_S8192x64_0_1 (broadcastInDim S1x64 ![1] bcast_S64_S1x64_1 (m ((c : Thread nD τ).loc main_arg2)))))
          (broadcastInDim S8192x64 ![] bcast_S_S8192x64 (constant (F := Ideal) S_ .f32 0x00000000#32)) := by
    unfold V
    simp only [hostOps0, hostOps0_1, hostOps0_2, hostOps0_3, hostOps0_4, List.flatten_cons, List.flatten_nil, List.append_nil,
      List.cons_append, List.nil_append]
    after_results
    simp only [TRef.ofBuf, TRef.toBuf, cast_eq] <;> rfl
  rw [e, maximumf_apply, addf_apply, mulf_apply, bcast_cols_ix2, bcast_cols_ix2, bcast_scalar _ (by decide), constant_apply,
    Ideal.ofBits_zero_f32]
  rfl

set_option maxHeartbeats 1000000 in
/-- The weight array: W[95]. -/
theorem V_v12_apply (c : Dev nD) (o k : Fin 64) :
    (V m c main_v12 : S64x64.Idx → EReal) (ix2 o k) = m ((c : Thread nD τ).loc main_arg3) (ix3 95 o k) := by
  have e : (V m c main_v12 : S64x64.Idx → EReal)
      = shapeCast S64x64 (extractStridedSlice S1x64x64 ![95, 0, 0] (m ((c : Thread nD τ).loc main_arg3)) slices_S96x64x64_S1x64x64_95_0_0)
          shapeCasts_S1x64x64_S64x64 := by
    unfold V
    simp only [hostOps0, hostOps0_1, hostOps0_2, hostOps0_3, hostOps0_4, List.flatten_cons, List.flatten_nil, List.append_nil,
      List.cons_append, List.nil_append]
    after_results
    simp only [TRef.ofBuf, TRef.toBuf, cast_eq] <;> rfl
  rw [e, shapeCast_1ab_ab_apply]
  exact extractStridedSlice_apply _ _ _ _ (ix3 95 o k) (fun ax => by
    match ax with
    | ⟨0, _⟩ => rfl
    | ⟨1, _⟩ => exact (Nat.zero_add _).symm
    | ⟨2, _⟩ => exact (Nat.zero_add _).symm)

set_option maxHeartbeats 1000000 in
/-- The bias array: the row Bi[95]. -/
theorem V_v15_apply (c : Dev nD) (o : Fin 64) :
    (V m c main_v15 : S1x64.Idx → EReal) (ix2 0 o) = m ((c : Thread nD τ).loc main_arg4) (ix2 95 o) := by
  have e : (V m c main_v15 : S1x64.Idx → EReal)
      = broadcastInDim S1x64 ![1] bcast_S64_S1x64_1
          (shapeCast S64 (extractStridedSlice S1x64 ![95, 0] (m ((c : Thread nD τ).loc main_arg4)) slices_S96x64_S1x64_95_0) shapeCasts_S1x64_S64) := by
    unfold V
    simp only [hostOps0, hostOps0_1, hostOps0_2, hostOps0_3, hostOps0_4, List.flatten_cons, List.flatten_nil, List.append_nil,
      List.cons_append, List.nil_append]
    after_results
    simp only [TRef.ofBuf, TRef.toBuf, cast_eq] <;> rfl
  rw [e, bcast_row1_ix2, shapeCast_1a_a_apply, slice2_axis0_apply 95 _ _ 0 o 95 rfl]

end Readings

/-! ## The table words, whatever the tables hold -/

/-- The word the body loads from a table at grid coordinates i is the table's entry at position (i 1), whatever the table
    holds. -/
theorem word_tb0 (c : Dev nD) (xt : TbBuf0 (F := Ideal) c tbM0_0) (i : grid0.Coords) (d : Fin 64) (hd : (i 1).val = d.val) :
    word (F := Ideal) c tbM0_0 xt i = xt (ix1 d) :=
  congrArg xt (unit_idx i _ d hd)
theorem word_tb1 (c : Dev nD) (xt : TbBuf0 (F := Ideal) c tbM0_1) (i : grid0.Coords) (d : Fin 64) (hd : (i 1).val = d.val) :
    word (F := Ideal) c tbM0_1 xt i = xt (ix1 d) :=
  congrArg xt (unit_idx i _ d hd)
theorem word_tb2 (c : Dev nD) (xt : TbBuf0 (F := Ideal) c tbM0_2) (i : grid0.Coords) (d : Fin 64) (hd : (i 1).val = d.val) :
    word (F := Ideal) c tbM0_2 xt i = xt (ix1 d) :=
  congrArg xt (unit_idx i _ d hd)

/-! ## Where a block's entry lies in its array, at any admissible contents of the tables

A block's coordinate on an axis is the block index times the block's size plus the coordinate inside the block. -/

section AnyTables
variable (a : (pcfg0 (F := Ideal)).Adm)

theorem emb0_val (t : Fin (cfg0 a).N) (y : S1x4096x64.Idx) (b : Fin 3) :
    ((((cfg0 a).win 0).blk t).view.emb y b).val = ((cfg0 a).win 0).index t b * S1x4096x64.size b + 1 * (y b).val := rfl
theorem emb1_val (t : Fin (cfg0 a).N) (y : S4096x64.Idx) (b : Fin 2) :
    ((((cfg0 a).win 1).blk t).view.emb y b).val = cc0_transform_1 (grid0.coords t) b * S4096x64.size b + 1 * (y b).val := rfl
theorem emb2_val (t : Fin (cfg0 a).N) (y : S64x64.Idx) (b : Fin 2) :
    ((((cfg0 a).win 2).blk t).view.emb y b).val = cc0_transform_2 (grid0.coords t) b * S64x64.size b + 1 * (y b).val := rfl
theorem emb3_val (t : Fin (cfg0 a).N) (y : S1x64.Idx) (b : Fin 2) :
    ((((cfg0 a).win 3).blk t).view.emb y b).val = cc0_transform_3 (grid0.coords t) b * S1x64.size b + 1 * (y b).val := rfl

/-- Window 0's block index at a point whose step is d: the table-0 word at d, the batch half, and 0. -/
theorem index0 (pf : pre0.Contents (Elt Ideal)) (hpf : a.1 = pf) (t : Fin (cfg0 a).N) (d : Fin 64)
    (hd : ((grid0.coords t) 1).val = d.val) :
    ((cfg0 a).win 0).index t (0 : Fin 3) = (pf 0 (ix1 d) : BitVec 32).toNat
      ∧ ((cfg0 a).win 0).index t (1 : Fin 3) = (BitVec.ofNat 32 ((grid0.coords t) 0).val).toNat
      ∧ ((cfg0 a).win 0).index t (2 : Fin 3) = 0 := by
  subst hpf
  exact ⟨congrArg (fun x => (a.1 0 x : BitVec 32).toNat) (unit_idx (grid0.coords t) _ d hd), rfl, rfl⟩

end AnyTables

variable (m : (ℓ : Loc nD τ sig) → Buf (Elt Ideal) ℓ) (hO : Ok m)

/-- The step of a grid point, as a position of the tables. -/
def step (t : Fin (cfgM m hO).N) : Fin 64 := ⟨t.val % 64, Nat.mod_lt _ (by decide)⟩

/-- A table word at a point is the table at the point's step. -/
theorem word0_eq (c : Dev nD) (t : Fin (cfgM m hO).N) :
    word (F := Ideal) c tbM0_0 (tbl m 0) (grid0.coords t) = tbl m 0 (ix1 (step m hO t)) :=
  word_tb0 c (tbl m 0) (grid0.coords t) (step m hO t) (coords_eq t).1
theorem word1_eq (c : Dev nD) (t : Fin (cfgM m hO).N) :
    word (F := Ideal) c tbM0_1 (tbl m 1) (grid0.coords t) = tbl m 1 (ix1 (step m hO t)) :=
  word_tb1 c (tbl m 1) (grid0.coords t) (step m hO t) (coords_eq t).1
theorem word2_eq (c : Dev nD) (t : Fin (cfgM m hO).N) :
    word (F := Ideal) c tbM0_2 (tbl m 2) (grid0.coords t) = tbl m 2 (ix1 (step m hO t)) :=
  word_tb2 c (tbl m 2) (grid0.coords t) (step m hO t) (coords_eq t).1

/-! ## The blocks -/

/-- Window 0: entry (0, r, k) of the point's hidden-state block is h at (layer, row, k), the layer the table-0 word of the
    point's step and the row 4096·(t div 64) + r. -/
theorem hblk_read (c : Dev nD) (t : Fin (cfgM m hO).N) (r : Fin 4096) (k : Fin 64) (j : S96x8192x64.Idx)
    (h0 : (j 0).val = (tbl m 0 (ix1 (step m hO t))).toNat) (h1 : (j 1).val = t.val / 64 * 4096 + r.val) (h2 : (j 2).val = k.val) :
    (iblk m hO c 0 t : Vec Ideal S1x4096x64 .f32) (ix3 0 r k) = m ((c : Thread nD τ).loc main_arg5) j := by
  obtain ⟨e0, e1, e2⟩ := index0 (adm m hO) (tbl m) rfl t (step m hO t) (coords_eq t).1
  have hg := (coords_eq t).2
  show V m c main_arg5 ((((cfgM m hO).win 0).blk t).view.emb (ix3 0 r k)) = _
  rw [V_main_arg5]
  refine congrArg (m ((c : Thread nD τ).loc main_arg5)) (funext fun b => Fin.ext ?_)
  refine (emb0_val (adm m hO) t (ix3 0 r k) b).trans ?_
  have hr := r.isLt
  match b with
  | ⟨0, _⟩ =>
    show ((cfgM m hO).win 0).index t (0 : Fin 3) * 1 + 1 * 0 = (j 0).val
    rw [e0, h0, Nat.mul_one, Nat.mul_zero, Nat.add_zero]
  | ⟨1, _⟩ =>
    show ((cfgM m hO).win 0).index t (1 : Fin 3) * 4096 + 1 * r.val = (j 1).val
    rw [e1, h1, hg, BitVec.toNat_ofNat]
    have ht : t.val < 128 := lt_of_lt_of_eq t.isLt N_0
    omega
  | ⟨2, _⟩ =>
    show ((cfgM m hO).win 0).index t (2 : Fin 3) * 64 + 1 * k.val = (j 2).val
    rw [e2, h2]
    omega

/-- Window 1: entry (r, k) of the point's trace block is the input layer's trace at row 4096·(t div 64) + r. -/
theorem tblk_read (c : Dev nD) (t : Fin (cfgM m hO).N) (r : Fin 4096) (k : Fin 64) (hr : t.val / 64 * 4096 + r.val < 8192) :
    (iblk m hO c 1 t : Vec Ideal S4096x64 .f32) (ix2 r k)
      = Cert.Spec.trace (m ((c : Thread nD τ).loc main_arg0)) (m ((c : Thread nD τ).loc main_arg1)) (m ((c : Thread nD τ).loc main_arg2)) ⟨t.val / 64 * 4096 + r.val, hr⟩ k := by
  obtain ⟨e0, e1⟩ := index1_eq t
  rw [← V_v6_apply m c ⟨t.val / 64 * 4096 + r.val, hr⟩ k]
  show V m c main_v6 ((((cfgM m hO).win 1).blk t).view.emb (ix2 r k)) = _
  refine congrArg (V m c main_v6) (funext fun b => Fin.ext ?_)
  refine (emb1_val (adm m hO) t (ix2 r k) b).trans ?_
  match b with
  | ⟨0, _⟩ =>
    show cc0_transform_1 (grid0.coords t) 0 * 4096 + 1 * r.val = t.val / 64 * 4096 + r.val
    rw [e0]; omega
  | ⟨1, _⟩ =>
    show cc0_transform_1 (grid0.coords t) 1 * 64 + 1 * k.val = k.val
    rw [e1]; omega

/-- Window 2: the weight block is W[95]. -/
theorem wblk_read (c : Dev nD) (t : Fin (cfgM m hO).N) (o k : Fin 64) :
    (iblk m hO c 2 t : Vec Ideal S64x64 .f32) (ix2 o k) = m ((c : Thread nD τ).loc main_arg3) (ix3 95 o k) := by
  rw [← V_v12_apply m c o k]
  show V m c main_v12 ((((cfgM m hO).win 2).blk t).view.emb (ix2 o k)) = _
  refine congrArg (V m c main_v12) (funext fun b => Fin.ext ?_)
  refine (emb2_val (adm m hO) t (ix2 o k) b).trans ?_
  match b with
  | ⟨0, _⟩ => show 0 * 64 + 1 * o.val = o.val; omega
  | ⟨1, _⟩ => show 0 * 64 + 1 * k.val = k.val; omega

/-- Window 3: the bias block is the row Bi[95]. -/
theorem bblk_read (c : Dev nD) (t : Fin (cfgM m hO).N) (o : Fin 64) :
    (iblk m hO c 3 t : Vec Ideal S1x64 .f32) (ix2 0 o) = m ((c : Thread nD τ).loc main_arg4) (ix2 95 o) := by
  rw [← V_v15_apply m c o]
  show V m c main_v15 ((((cfgM m hO).win 3).blk t).view.emb (ix2 0 o)) = _
  refine congrArg (V m c main_v15) (funext fun b => Fin.ext ?_)
  refine (emb3_val (adm m hO) t (ix2 0 o) b).trans ?_
  match b with
  | ⟨0, _⟩ => show 0 * 1 + 1 * 0 = 0; omega
  | ⟨1, _⟩ => show 0 * 64 + 1 * o.val = o.val; omega

end Cert.KernelIdeal.Blocks

end
-- ==== Proof.KernelIdealValue.lean ====
/-
  The kernel's result array is `Spec.G` of its arguments, on the index domain.

  At step d of a batch half the tables name source position p = perm d of node 95's inputs: the layer word is
  src_layer[95,p], the feature word src_feat[95,p], the destination word p itself. So the step's source block is the gather
  table T at that layer, rows of the half, and the step adds to the accumulator's column p the table's column
  src_feat[95,p] — the entry node 95 gathers at its input p — and nothing to the other columns. As perm is a permutation
  of the 64 positions, after the 64 steps column c holds exactly what node 95 gathers at its input c. The flush applies
  W[95] and Bi[95] and the positive part: the half's rows of `Spec.G`. The two halves' blocks tile the result array.
-/
import proofs.«422501_j76562087018544_2_alg».proof.Proof.KernelIdealAccum
import proofs.«422501_j76562087018544_2_alg».proof.Proof.KernelIdealBlocks
import proofs.«422501_j76562087018544_2_alg».proof.Proof.KernelIdealTables
import proofs.«422501_j76562087018544_2_alg».proof.Proof.Spec
import Idealize.ShloMosaic.Lib.Pipeline.Value

set_option maxRecDepth 16384

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.KernelIdeal.Pieces Cert.KernelIdeal.Payload
open Cert.KernelIdeal.Accum Cert.KernelIdeal.Blocks Cert.KernelIdeal.Tables
open scoped BigOperators

variable (m : (ℓ : Loc nD τ sig) → Buf (Elt Ideal) ℓ) (hO : Ok m)

/-- The index domain, of the arguments as launched (the program runs on one device). -/
abbrev Dom : Prop :=
  Cert.Spec.InRange (m (((0 : Dev nD) : Thread nD τ).loc main_arg6)) (m (((0 : Dev nD) : Thread nD τ).loc main_arg7))

/-- A small position as a word: equal to a word exactly when it is the word's value. -/
theorem ofNat_eq_iff (k : Fin 64) (w : BitVec 32) : BitVec.ofNat 32 k.val = w ↔ k.val = w.toNat := by
  constructor
  · intro h
    have e := congrArg BitVec.toNat h
    rw [BitVec.toNat_ofNat] at e
    have := k.isLt
    omega
  · intro h
    apply BitVec.eq_of_toNat_eq
    rw [BitVec.toNat_ofNat, h]
    exact Nat.mod_eq_of_lt w.isLt

theorem ofNat_inj (a b : Fin 64) (h : BitVec.ofNat 32 a.val = BitVec.ofNat 32 b.val) : a = b := by
  have e := (ofNat_eq_iff a _).mp h
  rw [BitVec.toNat_ofNat] at e
  have := b.isLt
  exact Fin.ext (by omega)

/-- Row r of the half of point t, as a row of the batch. -/
def rowOf (t : Fin (cfgM m hO).N) (r : Fin 4096) : Fin 8192 :=
  ⟨t.val / 64 * 4096 + r.val, by have := N_eq m hO; have := t.isLt; have := r.isLt; omega⟩

/-- The point's source block is the gather table at the layer its sorted row names, on the half's rows. -/
theorem source_eq (hd : Dom m) (c : Dev nD) (t : Fin (cfgM m hO).N) (r : Fin 4096) (k : Fin 64) :
    source (W0 m hO c t) (hblk m hO c t) (tblk m hO c t) r k
      = Cert.Spec.table (m ((c : Thread nD τ).loc main_arg0)) (m ((c : Thread nD τ).loc main_arg1)) (m ((c : Thread nD τ).loc main_arg2)) (m ((c : Thread nD τ).loc main_arg5)) (Cert.Spec.layer (slRow m (perm m (step m hO t)))) (rowOf m hO t r) k := by
  obtain rfl : c = 0 := Subsingleton.elim _ _
  have hw : W0 m hO 0 t = slRow m (perm m (step m hO t)) := (word0_eq m hO 0 t).trans (tbl0 m (step m hO t))
  have hlt : (slRow m (perm m (step m hO t))).toNat < 96 := hd.1 _
  unfold source Cert.Spec.table
  rw [hw]
  by_cases hz : slRow m (perm m (step m hO t)) = 0#32
  · rw [if_pos hz, if_pos (by rw [Cert.Spec.layer_val_of_lt hlt, hz]; rfl)]
    exact tblk_read m hO 0 t r k _
  · have hne : ¬(Cert.Spec.layer (slRow m (perm m (step m hO t)))).val = 0 := by
      rw [Cert.Spec.layer_val_of_lt hlt]
      intro h
      exact hz (BitVec.eq_of_toNat_eq (by rw [h]; rfl))
    rw [if_neg hz, if_neg hne]
    exact hblk_read m hO 0 t r k (ix3 (Cert.Spec.layer (slRow m (perm m (step m hO t)))) (rowOf m hO t r) k)
      ((Cert.Spec.layer_val_of_lt hlt).trans (congrArg BitVec.toNat (tbl0 m (step m hO t)).symm)) rfl rfl

/-- What node 95 gathers at input d, in terms of the rows the tables are read from. -/
theorem gathered_rows (R : Fin 8192) (d : Fin 64) :
    Cert.Spec.gathered (m (((0 : Dev nD) : Thread nD τ).loc main_arg0)) (m (((0 : Dev nD) : Thread nD τ).loc main_arg1)) (m (((0 : Dev nD) : Thread nD τ).loc main_arg2)) (m (((0 : Dev nD) : Thread nD τ).loc main_arg5)) (m (((0 : Dev nD) : Thread nD τ).loc main_arg6)) (m (((0 : Dev nD) : Thread nD τ).loc main_arg7)) R d
      = Cert.Spec.table (m (((0 : Dev nD) : Thread nD τ).loc main_arg0)) (m (((0 : Dev nD) : Thread nD τ).loc main_arg1)) (m (((0 : Dev nD) : Thread nD τ).loc main_arg2)) (m (((0 : Dev nD) : Thread nD τ).loc main_arg5)) (Cert.Spec.layer (slRow m d)) R (Cert.Spec.feat (sfRow m d)) := rfl

/-- One step's amount: what node 95 gathers at input c when c is the step's destination, nothing otherwise. -/
theorem inc_eq (hd : Dom m) (c : Dev nD) (t : Fin (cfgM m hO).N) (r : Fin 4096) (cc : Fin 64) :
    inc m hO c t r cc
      = if cc = perm m (step m hO t) then Cert.Spec.gathered (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (rowOf m hO t r) cc else 0 := by
  obtain rfl : c = 0 := Subsingleton.elim _ _
  have hs := fun k => source_eq m hO hd 0 t r k
  have h1 : W1 m hO 0 t = sfRow m (perm m (step m hO t)) := (word1_eq m hO 0 t).trans (tbl1 m (step m hO t))
  have h2 : W2 m hO 0 t = BitVec.ofNat 32 (perm m (step m hO t)).val := (word2_eq m hO 0 t).trans (tbl2 m (step m hO t))
  have hf : (sfRow m (perm m (step m hO t))).toNat < 64 := hd.2 _
  unfold inc
  rw [h1, h2]
  by_cases hc : cc = perm m (step m hO t)
  · rw [if_pos hc, Finset.sum_eq_single (⟨(sfRow m (perm m (step m hO t))).toNat, hf⟩ : Fin 64)]
    · rw [if_pos ⟨(ofNat_eq_iff _ _).mpr rfl, by rw [hc]⟩, mul_one, hs, hc, gathered_rows]
      exact congrArg (Cert.Spec.table (m (((0 : Dev nD) : Thread nD τ).loc main_arg0)) (m (((0 : Dev nD) : Thread nD τ).loc main_arg1)) (m (((0 : Dev nD) : Thread nD τ).loc main_arg2)) (m (((0 : Dev nD) : Thread nD τ).loc main_arg5)) (Cert.Spec.layer (slRow m (perm m (step m hO t)))) (rowOf m hO t r))
        (Fin.ext (show (sfRow m (perm m (step m hO t))).toNat = (Cert.Spec.feat (sfRow m (perm m (step m hO t)))).val from
          (Cert.Spec.feat_val_of_lt hf).symm))
    · intro k _ hk
      rw [if_neg (fun h => hk (Fin.ext ((ofNat_eq_iff k _).mp h.1))), mul_zero]
    · intro h
      exact absurd (Finset.mem_univ _) h
  · rw [if_neg hc]
    refine Finset.sum_eq_zero fun k _ => ?_
    rw [if_neg (fun h => hc (ofNat_inj cc _ h.2)), mul_zero]

/-- The same for the step numbered d of t's half. -/
theorem incN_eq (hd : Dom m) (c : Dev nD) (t : Fin (cfgM m hO).N) (r : Fin 4096) (cc : Fin 64) (d : Fin 64) :
    incN m hO c (64 * (t.val / 64) + d.val) r cc
      = if cc = perm m d then Cert.Spec.gathered (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (rowOf m hO t r) cc else 0 := by
  have hN := N_eq m hO
  have hlt : 64 * (t.val / 64) + d.val < (cfgM m hO).N := by have := t.isLt; have := d.isLt; omega
  have hs : step m hO ⟨64 * (t.val / 64) + d.val, hlt⟩ = d :=
    Fin.ext (by show (64 * (t.val / 64) + d.val) % 64 = d.val; have := d.isLt; omega)
  have hrow : rowOf m hO ⟨64 * (t.val / 64) + d.val, hlt⟩ r = rowOf m hO t r :=
    Fin.ext (by show (64 * (t.val / 64) + d.val) / 64 * 4096 + r.val = t.val / 64 * 4096 + r.val; have := d.isLt; omega)
  unfold incN
  rw [dif_pos hlt, inc_eq m hO hd c ⟨_, hlt⟩ r cc, hs, hrow]

/-- After a half's last step column c of the accumulator is what node 95 gathers at its input c. -/
theorem acc_last (hd : Dom m) (c : Dev nD) (t : Fin (cfgM m hO).N) (h1 : t.val % 64 = 63) (r : Fin 4096) (cc : Fin 64) :
    acc m hO c t.val t.isLt (ix2 r cc) = Cert.Spec.gathered (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (rowOf m hO t r) cc := by
  rw [acc_sum m hO c r cc t.val t.isLt, h1, Finset.sum_range (fun d => incN m hO c (64 * (t.val / 64) + d) r cc)]
  obtain ⟨d0, hd0⟩ := perm_surjective m cc
  rw [Finset.sum_eq_single d0]
  · rw [incN_eq m hO hd c t r cc d0, if_pos hd0.symm]
  · intro d _ hne
    rw [incN_eq m hO hd c t r cc d, if_neg (fun h => hne (perm_injective m (h.symm.trans hd0.symm)))]
  · intro h
    exact absurd (Finset.mem_univ _) h

/-- At a half's last step the output block is the half's rows of the result. -/
theorem out_eq (hd : Dom m) (c : Dev nD) (t : Fin (cfgM m hO).N) (h1 : t.val % 64 = 63) (r : Fin 4096) (o : Fin 64) :
    (outsAt0 m hO c t.val t.isLt).1 (ix2 r o) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (rowOf m hO t r) o) := by
  rw [out_last m hO c t h1 r o]
  unfold Cert.Spec.G
  refine congrArg₂ max (congrArg₂ (· + ·) (Finset.sum_congr rfl fun k _ => ?_) (bblk_read m hO c t o)) rfl
  rw [acc_last m hO hd c t h1 r k]
  exact congrArg₂ (· * ·) rfl (wblk_read m hO c t o k)

/-! ## From the two blocks to the result array -/

/-- The result, as contents of the result array. -/
abbrev result (c : Dev nD) : Buf (Elt Ideal) ((c : Thread nD τ).loc main_v31) :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The output window's block at point t is block (t div 64, 0). -/
theorem idx4 : ∀ t : Fin grid0.N, cc0_transform_4 (grid0.coords t) 0 = t.val / 64 ∧ cc0_transform_4 (grid0.coords t) 1 = 0 :=
  (by decide +kernel : ∀ t : Fin grid0.N, cc0_transform_4 (grid0.coords t) 0 = t.val / 64 ∧ cc0_transform_4 (grid0.coords t) 1 = 0)

/-- What a half's last point writes back is that half's block of the result. -/
theorem flushed_eq (hd : Dom m) (c : Dev nD) (t : Fin (cfgM m hO).N) (hf : ((cfgM m hO).win 4).flush t = true) :
    (dats m hO 0 c).flushed 4 t = (((cfgM m hO).win 4).blk t).view.read (Elt Ideal) (result m c) := by
  have h63 : t.val % 64 = 63 := (flush0_4 (adm m hO) t).mp hf
  obtain ⟨e0, e1⟩ := idx4 t
  show ((cfgM m hO).win 4).cut (grid0.coords t) ((dats m hO 0 c).after 4 t) = _
  rw [after0_4]
  refine funext fun (y : S4096x64.Idx) => ?_
  have hx : ((cfgM m hO).win 4).xinj (grid0.coords t) y = ix2 (y 0) (y 1) :=
    funext fun a => Fin.ext (by match a with | ⟨0, _⟩ => rfl | ⟨1, _⟩ => rfl)
  show (outsAt0 m hO c t.val t.isLt).1 (((cfgM m hO).win 4).xinj (grid0.coords t) y) = _
  refine (congrArg (outsAt0 m hO c t.val t.isLt).1 hx).trans ?_
  refine (out_eq m hO hd c t h63 (y 0) (y 1)).trans ?_
  show result m c (ix2 (rowOf m hO t (y 0)) (y 1)) = result m c ((((cfgM m hO).win 4).blk t).view.emb y)
  refine congrArg (result m c) (funext fun a => Fin.ext ?_)
  match a with
  | ⟨0, _⟩ => show t.val / 64 * 4096 + (y 0).val = cc0_transform_4 (grid0.coords t) 0 * 4096 + 1 * (y 0).val; rw [e0]; omega
  | ⟨1, _⟩ => show (y 1).val = cc0_transform_4 (grid0.coords t) 1 * 64 + 1 * (y 1).val; rw [e1]; omega

/-- An index of the result array is in point t's block iff each coordinate is in the block's range on its axis. -/
theorem mem_blk (t : Fin (cfgM m hO).N) (i : S8192x64.Idx) :
    i ∈ (((cfgM m hO).win 4).blk t).view.set ↔ ∀ a : Fin 2, cc0_transform_4 (grid0.coords t) a * S4096x64.size a ≤ (i a).val
      ∧ (i a).val < cc0_transform_4 (grid0.coords t) a * S4096x64.size a + S4096x64.size a := by
  show i ∈ ((View.whole main_v31).slice (((cfgM m hO).win 4).rect t)).set ↔ _
  refine Iff.trans (Eq.to_iff (congrArg (fun s => i ∈ s) (View.set_slice_whole main_v31 (((cfgM m hO).win 4).rect t)))) ?_
  exact Rect.mem_set_unit

/-- Every row of the result array lies in the block its half's last point writes back. -/
theorem cover (i : S8192x64.Idx) :
    ∃ t : Fin (cfgM m hO).N, ((cfgM m hO).win 4).flush t = true ∧ i ∈ (((cfgM m hO).win 4).blk t).view.set := by
  have hi0 : (i 0).val < 8192 := (i 0).isLt
  have hi1 : (i 1).val < 64 := (i 1).isLt
  have hN := N_eq m hO
  have hlt : 64 * ((i 0).val / 4096) + 63 < (cfgM m hO).N := by omega
  obtain ⟨e0, e1⟩ := idx4 ⟨64 * ((i 0).val / 4096) + 63, hlt⟩
  refine ⟨⟨64 * ((i 0).val / 4096) + 63, hlt⟩, (flush0_4 (adm m hO) _).mpr (by show (64 * ((i 0).val / 4096) + 63) % 64 = 63; omega), ?_⟩
  rw [mem_blk]
  intro a
  match a with
  | ⟨0, _⟩ =>
    show cc0_transform_4 (grid0.coords ⟨64 * ((i 0).val / 4096) + 63, hlt⟩) 0 * 4096 ≤ (i 0).val
      ∧ (i 0).val < cc0_transform_4 (grid0.coords ⟨64 * ((i 0).val / 4096) + 63, hlt⟩) 0 * 4096 + 4096
    rw [e0]
    show (64 * ((i 0).val / 4096) + 63) / 64 * 4096 ≤ (i 0).val ∧ (i 0).val < (64 * ((i 0).val / 4096) + 63) / 64 * 4096 + 4096
    omega
  | ⟨1, _⟩ =>
    show cc0_transform_4 (grid0.coords ⟨64 * ((i 0).val / 4096) + 63, hlt⟩) 1 * 64 ≤ (i 1).val
      ∧ (i 1).val < cc0_transform_4 (grid0.coords ⟨64 * ((i 0).val / 4096) + 63, hlt⟩) 1 * 64 + 64
    rw [e1]
    omega

/-- So the result array ends holding the result. -/
theorem final (hd : Dom m) (c : Dev nD) : (dats m hO 0 c).arrAt 4 (cfgM m hO).N = result m c :=
  (dats m hO 0 c).arrAt_eq_of_cover 4 (result m c) (fun t hf => flushed_eq m hO hd c t hf) (cover m hO)

/-- The run, read: the result array at the result, the arguments unchanged. -/
theorem run (hO : Ok m) (hd : Dom m) (ρ : Dev nD → PrngReg) :
    θ_run defs (onTc (τ := τ) (main (F := Ideal))) ⟨m, fun _ => 0, ρ⟩ (fun r => ∀ c : Dev nD,
      r.2.mem ((c.tc : Thread nD τ).loc main_v31) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 4).trans (final m hO hd c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 0).trans (((dats m hO 0 c).arrAt_in 0 rfl _).trans ((A_eq m hO c 0).trans (V_main_arg5 m c))),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩)
    (run_main m ρ hO)

end Cert.KernelIdeal.Value

end
-- ==== Proof.RefOps.lean ====
/-
  The reference's four operations that read their operands at a data-dependent or piecewise index — the scatter that
  puts the input trace in layer 0 of the table, the gather of the table, and the two concatenations — each read at an
  index, over the program's literal shapes; and the index wrap on words below 2³¹.
-/
import proofs.«422501_j76562087018544_2_alg».proof.Proof.Gen.ReferenceIdeal
import Idealize.ShloMosaic.Lib.Pipeline.Value
import Idealize.ShloMosaic.Lib.ValueIdx

noncomputable section

namespace Cert.RefOps

open Idealize.ShloMosaic Idealize.ShloMosaic.ValueIdx
open Cert.ReferenceIdeal Cert.ReferenceIdeal.Gen

/-! ## A fold of point updates -/

/-- A left fold of point updates leaves a point no update names as it was. -/
theorem foldl_set_miss {ι κ α : Type} [DecidableEq κ] (e : ι → κ) (v : ι → α) (k : κ) :
    ∀ (L : List ι) (x : κ → α), (∀ n ∈ L, e n ≠ k) →
      (L.foldl (fun r n => fun k' => if k' = e n then v n else r k') x) k = x k
  | [], x, _ => rfl
  | a :: L, x, h => by
    rw [List.foldl_cons, foldl_set_miss e v k L _ (fun n hn => h n (List.mem_cons_of_mem _ hn))]
    exact if_neg (fun hk => h a List.mem_cons_self hk.symm)

/-- A left fold of point updates at pairwise distinct points holds, at a named point, that point's update. -/
theorem foldl_set_hit {ι κ α : Type} [DecidableEq κ] (e : ι → κ) (v : ι → α) (he : Function.Injective e) (n₀ : ι) :
    ∀ (L : List ι) (x : κ → α), n₀ ∈ L →
      (L.foldl (fun r n => fun k' => if k' = e n then v n else r k') x) (e n₀) = v n₀
  | [], x, h => absurd h List.not_mem_nil
  | a :: L, x, h => by
    rw [List.foldl_cons]
    by_cases hL : n₀ ∈ L
    · exact foldl_set_hit e v he n₀ L _ hL
    · have ha : n₀ = a := by
        rcases List.mem_cons.1 h with h | h
        · exact h
        · exact absurd h hL
      subst ha
      rw [foldl_set_miss e v (e n₀) L _ (fun n hn hk => hL (he hk ▸ hn))]
      exact if_pos rfl

/-- An overwriting scatter (its body returns the update) whose every update lands inside the operand, update `j` at
    `e j`, is the fold of the point updates `e j ↦ upd j` in row-major order. -/
theorem scatter_set_eq_foldl {α : Type} {s si u : Shape} {w : Nat} (d : ScatterDims s si u) (x : s.Idx → α) (idx : IVec si w)
    (upd : u.Idx → α) (e : u.Idx → s.Idx) (hg : ∀ j, d.resultIdx? j idx = some (e j)) :
    Host.scatter d (fun _ b => b) x idx upd
      = (List.finRange u.numel).foldl (fun r n => fun k' => if k' = e (u.rowMajor.symm n) then upd (u.rowMajor.symm n) else r k') x := by
  unfold Host.scatter
  refine congrArg (fun f => List.foldl f x (List.finRange u.numel)) ?_
  funext r n
  rw [hg]

/-- Such a scatter with pairwise distinct landing indices holds update `j` at `e j`. -/
theorem scatter_set_hit {α : Type} {s si u : Shape} {w : Nat} (d : ScatterDims s si u) (x : s.Idx → α) (idx : IVec si w)
    (upd : u.Idx → α) (e : u.Idx → s.Idx) (hg : ∀ j, d.resultIdx? j idx = some (e j)) (he : Function.Injective e) (j : u.Idx) :
    Host.scatter d (fun _ b => b) x idx upd (e j) = upd j := by
  rw [scatter_set_eq_foldl d x idx upd e hg]
  have := foldl_set_hit (fun n => e (u.rowMajor.symm n)) (fun n => upd (u.rowMajor.symm n))
    (fun a b hab => u.rowMajor.symm.injective (he hab)) (u.rowMajor j) (List.finRange u.numel) x (List.mem_finRange _)
  simpa using this

/-- Such a scatter leaves an index no update lands at as the operand had it. -/
theorem scatter_set_miss {α : Type} {s si u : Shape} {w : Nat} (d : ScatterDims s si u) (x : s.Idx → α) (idx : IVec si w)
    (upd : u.Idx → α) (e : u.Idx → s.Idx) (hg : ∀ j, d.resultIdx? j idx = some (e j)) (k : s.Idx) (hk : ∀ j, e j ≠ k) :
    Host.scatter d (fun _ b => b) x idx upd k = x k := by
  rw [scatter_set_eq_foldl d x idx upd e hg]
  exact foldl_set_miss (fun n => e (u.rowMajor.symm n)) (fun n => upd (u.rowMajor.symm n)) k _ x (fun n _ => hk _)

/-- A statement about every axis of a rank-3 shape, from the three axes. -/
theorem forall_axis3 {P : Fin 3 → Prop} (h0 : P 0) (h1 : P 1) (h2 : P 2) : ∀ a, P a := fun a =>
  match a with
  | ⟨0, _⟩ => h0
  | ⟨1, _⟩ => h1
  | ⟨2, _⟩ => h2

/-! ## The scatter: layer 0 of the table replaced

One scatter index, the word 0, names the start on axis 0; the update's two axes are the window's, going to the operand's
axes 1 and 2. Update `(r, k)` lands at `(0, r, k)`. -/

section Scatter
variable (j : S8192x64.Idx) (idx : IVec S1 32)

theorem scat_start_0 (h0 : ∀ q, idx q = 0#32) : scatter_S96x8192x64_S1_S8192x64_01_0_0_0.start j idx 0 = 0 := by
  unfold ScatterDims.start
  rw [dif_pos (show (0 : Fin S96x8192x64.rank) ∈ scatter_S96x8192x64_S1_S8192x64_01_0_0_0.scatterDimsToOperandDims by decide), h0]
  rfl
theorem scat_start_1 : scatter_S96x8192x64_S1_S8192x64_01_0_0_0.start j idx 1 = 0 := by
  unfold ScatterDims.start
  rw [dif_neg (show ¬(1 : Fin S96x8192x64.rank) ∈ scatter_S96x8192x64_S1_S8192x64_01_0_0_0.scatterDimsToOperandDims by decide)]
theorem scat_start_2 : scatter_S96x8192x64_S1_S8192x64_01_0_0_0.start j idx 2 = 0 := by
  unfold ScatterDims.start
  rw [dif_neg (show ¬(2 : Fin S96x8192x64.rank) ∈ scatter_S96x8192x64_S1_S8192x64_01_0_0_0.scatterDimsToOperandDims by decide)]
theorem scat_window_0 : scatter_S96x8192x64_S1_S8192x64_01_0_0_0.window j 0 = 0 := by
  unfold ScatterDims.window
  rw [dif_neg (show ¬(0 : Fin S96x8192x64.rank) ∈ scatter_S96x8192x64_S1_S8192x64_01_0_0_0.sKept by decide)]
theorem scat_window_1 : scatter_S96x8192x64_S1_S8192x64_01_0_0_0.window j 1 = (j 0).val := by
  unfold ScatterDims.window
  rw [dif_pos (show (1 : Fin S96x8192x64.rank) ∈ scatter_S96x8192x64_S1_S8192x64_01_0_0_0.sKept by decide)]
  rfl
theorem scat_window_2 : scatter_S96x8192x64_S1_S8192x64_01_0_0_0.window j 2 = (j 1).val := by
  unfold ScatterDims.window
  rw [dif_pos (show (2 : Fin S96x8192x64.rank) ∈ scatter_S96x8192x64_S1_S8192x64_01_0_0_0.sKept by decide)]
  rfl

/-- Where update `j` lands. -/
theorem scat_resultIdx (h0 : ∀ q, idx q = 0#32) :
    scatter_S96x8192x64_S1_S8192x64_01_0_0_0.resultIdx? j idx = some (ix3 (0 : Fin 96) (j 0) (j 1)) := by
  have h0' : (j 0).val < 8192 := (j 0).isLt
  have h1' : (j 1).val < 64 := (j 1).isLt
  have H : ∀ a, 0 ≤ scatter_S96x8192x64_S1_S8192x64_01_0_0_0.start j idx a + scatter_S96x8192x64_S1_S8192x64_01_0_0_0.window j a
      ∧ scatter_S96x8192x64_S1_S8192x64_01_0_0_0.start j idx a + scatter_S96x8192x64_S1_S8192x64_01_0_0_0.window j a < S96x8192x64.size a :=
    forall_axis3
      (by rw [scat_start_0 j idx h0, scat_window_0]; show (0 : Int) ≤ 0 + ((0 : Nat) : Int) ∧ (0 : Int) + ((0 : Nat) : Int) < ((96 : Nat) : Int); omega)
      (by rw [scat_start_1, scat_window_1]; show (0 : Int) ≤ 0 + (((j 0).val : Nat) : Int) ∧ (0 : Int) + (((j 0).val : Nat) : Int) < ((8192 : Nat) : Int); omega)
      (by rw [scat_start_2, scat_window_2]; show (0 : Int) ≤ 0 + (((j 1).val : Nat) : Int) ∧ (0 : Int) + (((j 1).val : Nat) : Int) < ((64 : Nat) : Int); omega)
  unfold ScatterDims.resultIdx?
  rw [dif_pos H]
  refine congrArg some (funext fun a => Fin.ext ?_)
  revert a
  refine forall_axis3 ?_ ?_ ?_
  · show (scatter_S96x8192x64_S1_S8192x64_01_0_0_0.start j idx 0 + scatter_S96x8192x64_S1_S8192x64_01_0_0_0.window j 0).toNat = 0
    rw [scat_start_0 j idx h0, scat_window_0]; rfl
  · show (scatter_S96x8192x64_S1_S8192x64_01_0_0_0.start j idx 1 + scatter_S96x8192x64_S1_S8192x64_01_0_0_0.window j 1).toNat = (j 0).val
    rw [scat_start_1, scat_window_1]; omega
  · show (scatter_S96x8192x64_S1_S8192x64_01_0_0_0.start j idx 2 + scatter_S96x8192x64_S1_S8192x64_01_0_0_0.window j 2).toNat = (j 1).val
    rw [scat_start_2, scat_window_2]; omega

end Scatter

/-- THE SCATTER READ AT `(l, r, k)`: layer 0 holds the update, every other layer the operand. -/
theorem scatter_apply {α : Type} (x : S96x8192x64.Idx → α) (idx : IVec S1 32) (upd : S8192x64.Idx → α) (h0 : ∀ q, idx q = 0#32)
    (l : Fin 96) (r : Fin 8192) (k : Fin 64) :
    Host.scatter scatter_S96x8192x64_S1_S8192x64_01_0_0_0 (fun _ b => b) x idx upd (ix3 l r k)
      = if l.val = 0 then upd (ix2 r k) else x (ix3 l r k) := by
  have hg : ∀ j : S8192x64.Idx, scatter_S96x8192x64_S1_S8192x64_01_0_0_0.resultIdx? j idx = some (ix3 (0 : Fin 96) (j 0) (j 1)) :=
    fun j => scat_resultIdx j idx h0
  by_cases hl : l.val = 0
  · rw [if_pos hl]
    obtain rfl : l = 0 := Fin.ext hl
    have he : Function.Injective (fun j : S8192x64.Idx => (ix3 (0 : Fin 96) (j 0) (j 1) : S96x8192x64.Idx)) := fun a b hab => by
      rw [eq_ix2 a, eq_ix2 b]
      have h1 := congrFun hab 1
      have h2 := congrFun hab 2
      exact congrArg₂ ix2 h1 h2
    exact scatter_set_hit scatter_S96x8192x64_S1_S8192x64_01_0_0_0 x idx upd _ hg he (ix2 r k)
  · rw [if_neg hl]
    exact scatter_set_miss scatter_S96x8192x64_S1_S8192x64_01_0_0_0 x idx upd _ hg _
      (fun j hj => hl (congrArg Fin.val (congrFun hj 0)).symm)

/-! ## The gather: one table entry per (node, input, batch row)

The start index of result element `(n, d, b)` is the pair `(idx[n, d, 0], idx[n, d, 1])`, naming the operand's axes 0 and 2,
both collapsed; the result's axis 2 is the one offset axis and runs over the operand's axis 1. -/

section Gather
variable (n : Fin 96) (d : Fin 64) (b : Fin 8192) (idx : IVec S96x64x2 32)

theorem gath_start_0 :
    gather_S96x8192x64_S96x64x2_S96x64x8192_2_02_n_n_02_2_181921.start (ix3 n d b) idx 0
      = min (idx (ix3 n d (0 : Fin 2))).toInt.toNat 95 := by
  unfold GatherDims.start
  rw [dif_pos (show (0 : Fin S96x8192x64.rank) ∈ gather_S96x8192x64_S96x64x2_S96x64x8192_2_02_n_n_02_2_181921.startIndexMap by decide)]
  have hsi : gather_S96x8192x64_S96x64x2_S96x64x8192_2_02_n_n_02_2_181921.siIdx (ix3 n d b)
      ⟨List.idxOf (0 : Fin S96x8192x64.rank) gather_S96x8192x64_S96x64x2_S96x64x8192_2_02_n_n_02_2_181921.startIndexMap,
        List.idxOf_lt_length_iff.2 (by decide)⟩ = ix3 n d (0 : Fin 2) := by
    funext c; refine Fin.ext ?_
    match c with
    | ⟨0, _⟩ => rfl
    | ⟨1, _⟩ => rfl
    | ⟨2, _⟩ => rfl
  rw [hsi]
  rfl
theorem gath_start_1 :
    gather_S96x8192x64_S96x64x2_S96x64x8192_2_02_n_n_02_2_181921.start (ix3 n d b) idx 1 = 0 := by
  unfold GatherDims.start
  rw [dif_neg (show ¬(1 : Fin S96x8192x64.rank) ∈ gather_S96x8192x64_S96x64x2_S96x64x8192_2_02_n_n_02_2_181921.startIndexMap by decide)]
theorem gath_start_2 :
    gather_S96x8192x64_S96x64x2_S96x64x8192_2_02_n_n_02_2_181921.start (ix3 n d b) idx 2
      = min (idx (ix3 n d (1 : Fin 2))).toInt.toNat 63 := by
  unfold GatherDims.start
  rw [dif_pos (show (2 : Fin S96x8192x64.rank) ∈ gather_S96x8192x64_S96x64x2_S96x64x8192_2_02_n_n_02_2_181921.startIndexMap by decide)]
  have hsi : gather_S96x8192x64_S96x64x2_S96x64x8192_2_02_n_n_02_2_181921.siIdx (ix3 n d b)
      ⟨List.idxOf (2 : Fin S96x8192x64.rank) gather_S96x8192x64_S96x64x2_S96x64x8192_2_02_n_n_02_2_181921.startIndexMap,
        List.idxOf_lt_length_iff.2 (by decide)⟩ = ix3 n d (1 : Fin 2) := by
    funext c; refine Fin.ext ?_
    match c with
    | ⟨0, _⟩ => rfl
    | ⟨1, _⟩ => rfl
    | ⟨2, _⟩ => rfl
  rw [hsi]
  rfl
theorem gath_batch (a : Fin S96x8192x64.rank) :
    gather_S96x8192x64_S96x64x2_S96x64x8192_2_02_n_n_02_2_181921.batchCoord (ix3 n d b) a = 0 :=
  GatherDims.batchCoord_eq_zero _ _ _ List.not_mem_nil
theorem gath_off_0 :
    gather_S96x8192x64_S96x64x2_S96x64x8192_2_02_n_n_02_2_181921.offCoord (ix3 n d b) 0 = 0 :=
  GatherDims.offCoord_eq_zero _ _ _ (show ¬(0 : Fin S96x8192x64.rank) ∈ gather_S96x8192x64_S96x64x2_S96x64x8192_2_02_n_n_02_2_181921.sKept by decide)
theorem gath_off_1 :
    gather_S96x8192x64_S96x64x2_S96x64x8192_2_02_n_n_02_2_181921.offCoord (ix3 n d b) 1 = b.val := by
  unfold GatherDims.offCoord
  rw [dif_pos (show (1 : Fin S96x8192x64.rank) ∈ gather_S96x8192x64_S96x64x2_S96x64x8192_2_02_n_n_02_2_181921.sKept by decide)]
  rfl
theorem gath_off_2 :
    gather_S96x8192x64_S96x64x2_S96x64x8192_2_02_n_n_02_2_181921.offCoord (ix3 n d b) 2 = 0 :=
  GatherDims.offCoord_eq_zero _ _ _ (show ¬(2 : Fin S96x8192x64.rank) ∈ gather_S96x8192x64_S96x64x2_S96x64x8192_2_02_n_n_02_2_181921.sKept by decide)

/-- THE GATHER READ AT `(n, d, b)`: the operand at layer `idx[n, d, 0]` and feature `idx[n, d, 1]`, each read signed and
    clamped into its axis, on batch row `b`. -/
theorem gather_apply {α : Type} (x : S96x8192x64.Idx → α) :
    Host.gather gather_S96x8192x64_S96x64x2_S96x64x8192_2_02_n_n_02_2_181921 x idx (ix3 n d b)
      = x (ix3 (⟨min (idx (ix3 n d (0 : Fin 2))).toInt.toNat 95, by omega⟩ : Fin 96) b
            (⟨min (idx (ix3 n d (1 : Fin 2))).toInt.toNat 63, by omega⟩ : Fin 64)) := by
  unfold Host.gather
  refine congrArg x (funext fun a => Fin.ext ?_)
  revert a
  refine forall_axis3 ?_ ?_ ?_
  · show gather_S96x8192x64_S96x64x2_S96x64x8192_2_02_n_n_02_2_181921.start (ix3 n d b) idx 0
        + gather_S96x8192x64_S96x64x2_S96x64x8192_2_02_n_n_02_2_181921.batchCoord (ix3 n d b) 0
        + gather_S96x8192x64_S96x64x2_S96x64x8192_2_02_n_n_02_2_181921.offCoord (ix3 n d b) 0 = min (idx (ix3 n d (0 : Fin 2))).toInt.toNat 95
    rw [gath_start_0, gath_batch, gath_off_0]; rfl
  · show gather_S96x8192x64_S96x64x2_S96x64x8192_2_02_n_n_02_2_181921.start (ix3 n d b) idx 1
        + gather_S96x8192x64_S96x64x2_S96x64x8192_2_02_n_n_02_2_181921.batchCoord (ix3 n d b) 1
        + gather_S96x8192x64_S96x64x2_S96x64x8192_2_02_n_n_02_2_181921.offCoord (ix3 n d b) 1 = b.val
    rw [gath_start_1, gath_batch, gath_off_1]; omega
  · show gather_S96x8192x64_S96x64x2_S96x64x8192_2_02_n_n_02_2_181921.start (ix3 n d b) idx 2
        + gather_S96x8192x64_S96x64x2_S96x64x8192_2_02_n_n_02_2_181921.batchCoord (ix3 n d b) 2
        + gather_S96x8192x64_S96x64x2_S96x64x8192_2_02_n_n_02_2_181921.offCoord (ix3 n d b) 2 = min (idx (ix3 n d (1 : Fin 2))).toInt.toNat 63
    rw [gath_start_2, gath_batch, gath_off_2]; rfl

end Gather

/-! ## The two concatenations -/

section Concat
variable {α : Type}

/-- The pair of index columns joined on the last axis: component 0 is the first column. -/
theorem concat_idx_0 (a c : S96x64x1.Idx → α) (n : Fin 96) (d : Fin 64) :
    concatenate S96x64x2 2 [⟨S96x64x1, a⟩, ⟨S96x64x1, c⟩] Facts₀.concatenates_S96x64x1_S96x64x1_S96x64x2_d2 (ix3 n d (0 : Fin 2))
      = a (ix3 n d (0 : Fin 1)) :=
  concatenate_pair_apply_left (t := S96x64x2) (s₁ := S96x64x1) (s₂ := S96x64x1) 2 a c _ (ix3 n d (0 : Fin 2)) rfl (ix3 n d (0 : Fin 1)) (forall_axis3 rfl rfl rfl)

/-- … and component 1 is the second column. -/
theorem concat_idx_1 (a c : S96x64x1.Idx → α) (n : Fin 96) (d : Fin 64) :
    concatenate S96x64x2 2 [⟨S96x64x1, a⟩, ⟨S96x64x1, c⟩] Facts₀.concatenates_S96x64x1_S96x64x1_S96x64x2_d2 (ix3 n d (1 : Fin 2))
      = c (ix3 n d (0 : Fin 1)) :=
  concatenate_pair_apply_right (t := S96x64x2) (s₁ := S96x64x1) (s₂ := S96x64x1) 2 a c _ (ix3 n d (1 : Fin 2)) rfl rfl (ix3 n d (0 : Fin 1))
    (forall_axis3 (fun _ => rfl) (fun _ => rfl) (fun h => absurd rfl h)) rfl

/-- Node 0's row followed by the other 95 nodes' rows: row 95 is the second piece's row 94. -/
theorem concat_rows_95 (a : S1x8192x64.Idx → α) (c : S95x8192x64.Idx → α) (r : Fin 8192) (o : Fin 64) :
    concatenate S96x8192x64 0 [⟨S1x8192x64, a⟩, ⟨S95x8192x64, c⟩] Facts₀.concatenates_S1x8192x64_S95x8192x64_S96x8192x64_d0 (ix3 (95 : Fin 96) r o)
      = c (ix3 (94 : Fin 95) r o) :=
  concatenate_pair_apply_right (t := S96x8192x64) (s₁ := S1x8192x64) (s₂ := S95x8192x64) 0 a c _ (ix3 (95 : Fin 96) r o) rfl rfl (ix3 (94 : Fin 95) r o)
    (forall_axis3 (fun h => absurd rfl h) (fun _ => rfl) (fun _ => rfl)) rfl

end Concat

/-! ## The index wrap is the identity on the index domain -/

/-- A word below 2³¹ is non-negative read signed, so the wrap of a negative index (the axis length added) leaves it alone. -/
theorem wrap_id (w c : BitVec 32) (h : w.toNat < 2147483648) :
    Scalar.select (IntOp.cmpi .slt w 0#32) (IntOp.addi w c) w = w := by
  have hs : IntOp.cmpi .slt w 0#32 = 0#1 := by
    show BitVec.ofBool (w.slt 0#32) = 0#1
    have : w.slt 0#32 = false := by
      rw [BitVec.slt_eq_decide, BitVec.toInt_eq_toNat_of_lt (by omega)]
      simp
    rw [this]; rfl
  rw [hs, select_zero]

/-- A word below 2³¹ read signed is the word read unsigned. -/
theorem toInt_toNat (w : BitVec 32) (h : w.toNat < 2147483648) : w.toInt.toNat = w.toNat := by
  rw [BitVec.toInt_eq_toNat_of_lt (by omega)]; rfl

end Cert.RefOps

end
-- ==== Proof.RefValue.lean ====
/-
  The reference's result is `Spec.G` of its arguments, on the index domain.

  Each stage of the reference is read at an index: the input trace, the table (the scatter puts the trace in layer 0 of
  the hidden states), the two index columns (the wrap of a negative index is the identity on the index domain), what
  node 95 gathers, and node 95's row of the output (row 95 of the concatenation is the positive-part piece's row 94,
  which is row 95 of the biased products).
-/
import proofs.«422501_j76562087018544_2_alg».proof.Proof.RefRun
import proofs.«422501_j76562087018544_2_alg».proof.Proof.RefRead
import proofs.«422501_j76562087018544_2_alg».proof.Proof.RefOps
import proofs.«422501_j76562087018544_2_alg».proof.Proof.Spec

noncomputable section

namespace Cert.RefValue

open Idealize.ShloMosaic Idealize.ShloMosaic.TcCoe Idealize.SL.Sem Idealize.ShloMosaic.ValueIdx
open Cert.ReferenceIdeal Cert.ReferenceIdeal.ReadP Cert.RefOps

/-! ## The stages at an index -/

section Stages
variable (x0 : (⟨S8192x64, .f32⟩ : BufTy).Contents (Elt Ideal)) (x1 x2 : (⟨S64, .f32⟩ : BufTy).Contents (Elt Ideal))
  (x3 : (⟨S96x64x64, .f32⟩ : BufTy).Contents (Elt Ideal)) (x4 : (⟨S96x64, .f32⟩ : BufTy).Contents (Elt Ideal))
  (x5 : (⟨S96x8192x64, .f32⟩ : BufTy).Contents (Elt Ideal)) (x6 x7 : (⟨S96x64, .i32⟩ : BufTy).Contents (Elt Ideal))

/-- The input layer's trace: scale, bias, positive part, channel by channel. -/
theorem trace_apply (r : Fin 8192) (k : Fin 64) :
    val_main_v6 (F := Ideal) x0 x1 x2 (ix2 r k) = Cert.Spec.trace x0 x1 x2 r k := by
  have e1 : idx_main_v0 (idx_main_v1 (ix2 r k)) = ix1 k := funext fun a => Fin.ext (by match a with | ⟨0, _⟩ => rfl)
  have e2 : idx_main_v3 (idx_main_v4 (ix2 r k)) = ix1 k := funext fun a => Fin.ext (by match a with | ⟨0, _⟩ => rfl)
  rw [val_main_v6_apply, val_main_v5_apply, val_main_v2_apply, val_main_v1_apply, val_main_v0_apply, val_main_v4_apply,
    val_main_v3_apply, val_main_call0_v0_apply, val_main_call0_cst_apply, e1, e2]
  show max (x0 (ix2 r k) * x1 (ix1 k) + x2 (ix1 k)) (Ideal.ofBits .f32 0x00000000#32) = _
  rw [Ideal.ofBits_zero_f32]
  rfl

/-- The gather table: the hidden states with layer 0 replaced by the trace. -/
theorem table_apply (l : Fin 96) (r : Fin 8192) (k : Fin 64) :
    val_main_v8 (F := Ideal) x0 x1 x2 x5 (ix3 l r k) = Cert.Spec.table x0 x1 x2 x5 l r k := by
  have h0 : ∀ q, val_main_v7 (F := Ideal) q = 0#32 := fun q => by rw [val_main_v7_apply, val_main_c_apply]
  unfold val_main_v8
  rw [scatter_apply x5 _ _ h0 l r k, trace_apply]
  rfl

/-- On the index domain the wrapped layer numbers are the layer numbers … -/
theorem layer_idx_apply (h : ∀ i, (x6 i).toNat < 96) (n : Fin 96) (d : Fin 64) :
    val_main_v21 (F := Ideal) x6 x7 (ix3 n d (0 : Fin 2)) = x6 (ix2 n d) := by
  have e : idx_main_v19 (ix3 n d (0 : Fin 1)) = ix2 n d :=
    funext fun a => Fin.ext (by match a with | ⟨0, _⟩ => rfl | ⟨1, _⟩ => rfl)
  unfold val_main_v21
  rw [concat_idx_0, val_main_v19_apply, e, val_main_v13_apply, val_main_v10_apply, val_main_v12_apply]
  exact wrap_id _ _ (by have := h (ix2 n d); omega)

/-- … and the wrapped feature numbers the feature numbers. -/
theorem feat_idx_apply (h : ∀ i, (x7 i).toNat < 64) (n : Fin 96) (d : Fin 64) :
    val_main_v21 (F := Ideal) x6 x7 (ix3 n d (1 : Fin 2)) = x7 (ix2 n d) := by
  have e : idx_main_v20 (ix3 n d (0 : Fin 1)) = ix2 n d :=
    funext fun a => Fin.ext (by match a with | ⟨0, _⟩ => rfl | ⟨1, _⟩ => rfl)
  unfold val_main_v21
  rw [concat_idx_1, val_main_v20_apply, e, val_main_v18_apply, val_main_v15_apply, val_main_v17_apply]
  exact wrap_id _ _ (by have := h (ix2 n d); omega)

/-- What node 95 gathers, on the index domain. -/
theorem gathered_apply (h : Cert.Spec.InRange x6 x7) (d : Fin 64) (b : Fin 8192) :
    val_main_v22 (F := Ideal) x0 x1 x2 x5 x6 x7 (ix3 (95 : Fin 96) d b) = Cert.Spec.gathered x0 x1 x2 x5 x6 x7 b d := by
  have hl := h.1 (ix2 (95 : Fin 96) d)
  have hf := h.2 (ix2 (95 : Fin 96) d)
  unfold val_main_v22
  rw [gather_apply, table_apply]
  unfold Cert.Spec.gathered
  congr 1
  · refine Fin.ext ?_
    show min (val_main_v21 (F := Ideal) x6 x7 (ix3 (95 : Fin 96) d (0 : Fin 2))).toInt.toNat 95 = min (x6 (ix2 (95 : Fin 96) d)).toNat 95
    rw [layer_idx_apply x6 x7 h.1, toInt_toNat _ (by omega)]
  · refine Fin.ext ?_
    show min (val_main_v21 (F := Ideal) x6 x7 (ix3 (95 : Fin 96) d (1 : Fin 2))).toInt.toNat 63 = min (x7 (ix2 (95 : Fin 96) d)).toNat 63
    rw [feat_idx_apply x6 x7 h.2, toInt_toNat _ (by omega)]

/-- THE REFERENCE'S RESULT is node 95's output, on the index domain. -/
theorem val_eq (h : Cert.Spec.InRange x6 x7) :
    val_main_v33 (F := Ideal) x0 x1 x2 x3 x4 x5 x6 x7 = Cert.Spec.G x0 x1 x2 x3 x4 x5 x6 x7 := by
  funext i
  obtain ⟨r, o, rfl⟩ : ∃ (r : Fin 8192) (o : Fin 64), i = ix2 r o := ⟨i 0, i 1, eq_ix2 i⟩
  have e33 : idx_main_v33 (ix2 r o) = ix3 (0 : Fin 1) r o := funext fun a => Fin.ext (by
    have hr := r.isLt; have ho := o.isLt
    match a with
    | ⟨0, _⟩ => rfl
    | ⟨1, _⟩ => show (r.val * 64 + o.val) / 64 % 8192 = r.val; omega
    | ⟨2, _⟩ => show (r.val * 64 + o.val) % 64 = o.val; omega)
  have e32 : idx_main_v32 (ix3 (0 : Fin 1) r o) = ix3 (95 : Fin 96) r o :=
    funext fun a => Fin.ext (by match a with | ⟨0, _⟩ => rfl | ⟨1, _⟩ => rfl | ⟨2, _⟩ => rfl)
  have e29 : idx_main_v29 (ix3 (94 : Fin 95) r o) = ix3 (95 : Fin 96) r o :=
    funext fun a => Fin.ext (by match a with | ⟨0, _⟩ => rfl | ⟨1, _⟩ => rfl | ⟨2, _⟩ => rfl)
  have e25 : idx_main_v25 (idx_main_v26 (ix3 (95 : Fin 96) r o)) = ix2 (95 : Fin 96) o :=
    funext fun a => Fin.ext (by match a with | ⟨0, _⟩ => rfl | ⟨1, _⟩ => rfl)
  have el : ∀ k : Fin 64, lidx_main_v24 (ix3 (95 : Fin 96) r o) k = ix3 (95 : Fin 96) r k := fun k =>
    funext fun a => Fin.ext (by match a with | ⟨0, _⟩ => rfl | ⟨1, _⟩ => rfl | ⟨2, _⟩ => rfl)
  have er : ∀ k : Fin 64, ridx_main_v24 (ix3 (95 : Fin 96) r o) k = ix3 (95 : Fin 96) o k := fun k =>
    funext fun a => Fin.ext (by match a with | ⟨0, _⟩ => rfl | ⟨1, _⟩ => rfl | ⟨2, _⟩ => rfl)
  have e23 : ∀ k : Fin 64, idx_main_v23 (ix3 (95 : Fin 96) r k) = ix3 (95 : Fin 96) k r := fun k =>
    funext fun a => Fin.ext (by match a with | ⟨0, _⟩ => rfl | ⟨1, _⟩ => rfl | ⟨2, _⟩ => rfl)
  have hsum : ∑ k : Fin 64, val_main_v23 (F := Ideal) x0 x1 x2 x5 x6 x7 (lidx_main_v24 (ix3 (95 : Fin 96) r o) k) * x3 (ridx_main_v24 (ix3 (95 : Fin 96) r o) k)
      = ∑ k : Fin 64, Cert.Spec.gathered x0 x1 x2 x5 x6 x7 r k * x3 (ix3 (95 : Fin 96) o k) :=
    Finset.sum_congr rfl fun k _ => by
      rw [el k, er k, val_main_v23_apply, e23 k, gathered_apply x0 x1 x2 x5 x6 x7 h]
  rw [val_main_v33_apply, e33, val_main_v32_apply, e32]
  unfold val_main_v31
  rw [concat_rows_95, val_main_v30_apply, val_main_v29_apply, e29, val_main_call1_v0_apply, val_main_call1_cst_apply,
    val_main_v27_apply, val_main_v24_apply, hsum, val_main_v26_apply, val_main_v25_apply, e25]
  show max ((∑ k : Fin 64, Cert.Spec.gathered x0 x1 x2 x5 x6 x7 r k * x3 (ix3 (95 : Fin 96) o k)) + x4 (ix2 (95 : Fin 96) o))
      (Ideal.ofBits .f32 0x00000000#32) = _
  rw [Ideal.ofBits_zero_f32]
  rfl

end Stages

theorem run (m : (ℓ : Loc nD τ sig) → Buf (Elt Ideal) ℓ) (ρ : Dev nD → PrngReg)
    (hr : ∀ c : Dev nD, Cert.Spec.InRange (m ((c.tc : Thread nD τ).loc main_arg6)) (m ((c.tc : Thread nD τ).loc main_arg7))) :
    θ_run (defs (F := Ideal)) (onTc (τ := τ) (main (F := Ideal))) ⟨m, fun _ => 0, ρ⟩ (fun r => ∀ c : Dev nD,
      r.2.mem ((c.tc : Thread nD τ).loc main_v33)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono
    (fun _ h c => ⟨(h c).1.trans ((val_main_v33_eq (F := Ideal) m c).trans (val_eq _ _ _ _ _ _ _ _ (hr c))), (h c).2⟩)
    (Cert.ReferenceIdeal.ValueP.run (F := Ideal) m ρ)

end Cert.RefValue

end
-- ==== Proof.lean ====
/-
  A pRNN-style network of 96 nodes of width 64 over a batch of 8192 rows returns its last node's output. Node 95
  gathers, for each of its 64 inputs d, one column of the gather table T — the input layer's trace max(x·w_in + b_in, 0)
  as layer 0, the hidden state h[l] as layer l > 0 — namely T[src_layer[95,d], ·, src_feat[95,d]], applies its linear layer
  W[95] and bias Bi[95], and takes the positive part: `Spec.G`.

  The reference computes every node and keeps node 95. The kernel computes node 95 alone: it sorts the 64 inputs by their
  layer, and for the d-th of the sorted order adds the gathered column into the accumulator's column perm d by a product
  with a matrix that has a single 1; since perm is a permutation of the 64 inputs, after the 64 steps the accumulator
  holds what node 95 gathers, column for column, and the final product, bias and positive part are the reference's. On the
  extended reals a change of float format is the identity, and the only laws used are x·1 = x, x·0 = 0 and 0 + x = x, so
  the float inputs' finiteness is not used.

  The integer inputs are indices: the claim is stated on the domain where every entry of src_layer names one of the 96
  layers and every entry of src_feat one of the 64 features (outside it the reference indexes out of range). There the
  kernel's table-indexed block lies inside h, which is what both kernel programs' frames need.
-/
import proofs.«422501_j76562087018544_2_alg».proof.Defs
import proofs.«422501_j76562087018544_2_alg».proof.Proof.Gen.Kernel
import proofs.«422501_j76562087018544_2_alg».proof.Proof.Gen.KernelIdeal
import proofs.«422501_j76562087018544_2_alg».proof.Proof.Gen.ReferenceIdeal
import proofs.«422501_j76562087018544_2_alg».proof.Proof.Gen.Pre_finite_inputs
import proofs.«422501_j76562087018544_2_alg».proof.Proof.IndexDomain
import proofs.«422501_j76562087018544_2_alg».proof.Proof.KernelFrame
import proofs.«422501_j76562087018544_2_alg».proof.Proof.KernelTables
import proofs.«422501_j76562087018544_2_alg».proof.Proof.KernelIdealFrame
import proofs.«422501_j76562087018544_2_alg».proof.Proof.KernelIdealTables
import proofs.«422501_j76562087018544_2_alg».proof.Proof.KernelIdealValue
import proofs.«422501_j76562087018544_2_alg».proof.Proof.RefValue
import Idealize.ShloMosaic.Adequacy
import Idealize.ShloMosaic.Init

noncomputable section

namespace Cert.Proof

open Idealize.ShloMosaic Idealize.ShloMosaic.TcCoe Idealize.SL.Sem

/-- The index domain of the word-level kernel's arguments, from its precondition. -/
theorem dom_Kernel (m : (ℓ : Loc Cert.Kernel.nD Cert.Kernel.τ Cert.Kernel.sig) → Buf (Elt Bits) ℓ) (h : Cert.Pre_Kernel m) (c : Dev Cert.Kernel.nD) :
    Cert.Spec.InRange (m ((c.tc : Thread Cert.Kernel.nD Cert.Kernel.τ).loc Cert.Kernel.main_arg6)) (m ((c.tc : Thread Cert.Kernel.nD Cert.Kernel.τ).loc Cert.Kernel.main_arg7)) :=
  Cert.IndexDomain.inRange_of_pre _ _ _ _ _ _ _ _ (h c)

/-- The index domain of the idealized kernel's arguments, from its precondition. -/
theorem dom_KernelIdeal (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.InRange (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  Cert.IndexDomain.inRange_of_pre _ _ _ _ _ _ _ _ (h c)

/-- The index domain of the reference's arguments, from its precondition. -/
theorem dom_ReferenceIdeal (m : (ℓ : Loc Cert.ReferenceIdeal.nD Cert.ReferenceIdeal.τ Cert.ReferenceIdeal.sig) → Buf (Elt Ideal) ℓ) (h : Cert.Pre_ReferenceIdeal m) (c : Dev Cert.ReferenceIdeal.nD) :
    Cert.Spec.InRange (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) :=
  Cert.IndexDomain.inRange_of_pre _ _ _ _ _ _ _ _ (h c)

/-- The word-level kernel runs and leaves its arguments: on the index domain its tables keep every block inside h. -/
theorem frame_p : Cert.frame_Kernel := fun m ρ h =>
  Cert.Kernel.GenP.frame m ρ (Cert.Kernel.Tables.ok_of_inRange m (dom_Kernel m h 0))

/-- The same for the idealized kernel. -/
theorem frame_pi : Cert.frame_KernelIdeal := fun m ρ h =>
  Cert.KernelIdeal.GenP.frame m ρ (Cert.KernelIdeal.Tables.ok_of_inRange m (dom_KernelIdeal m h 0))

/-- The reference runs and leaves its arguments: its run, the result dropped. -/
theorem frame_ri : Cert.frame_ReferenceIdeal := fun m ρ h =>
  (θ_run Cert.ReferenceIdeal.defs _ _).mono (fun _ hr c => (hr c).2) (Cert.RefValue.run m ρ (dom_ReferenceIdeal m h))

/-- The idealization rewrote nothing. -/
theorem preserves : Cert.preserves_Kernel_KernelIdeal := trivial

/-- Both idealized programs end at `Spec.G` of the arguments, which agree. -/
theorem algebraic : Cert.algebraic_KernelIdeal_ReferenceIdeal := by
  intro m ρ m' ρ' hpre hagree
  have hd := dom_KernelIdeal m hpre
  have hO := Cert.KernelIdeal.Tables.ok_of_inRange m (hd 0)
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Value.run m hO (hd 0) ρ, ?_⟩
  have hd' : ∀ c : Dev Cert.ReferenceIdeal.nD, Cert.Spec.InRange (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) := fun c => by
    rw [(hagree c).2.2.2.2.2.2.1, (hagree c).2.2.2.2.2.2.2]
    exact hd c
  refine (θ_run Cert.ReferenceIdeal.defs _ _).mono (fun _ hr c => ⟨(hr c).1.trans ?_, (hr c).2⟩) (Cert.RefValue.run m' ρ' hd')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
